-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048 : Shape := ⟨2, ![2048, 2048]⟩
abbrev S128x20 : Shape := ⟨2, ![128, 20]⟩
abbrev S20x20 : Shape := ⟨2, ![20, 20]⟩
abbrev S20 : Shape := ⟨1, ![20]⟩
abbrev S60x10 : Shape := ⟨2, ![60, 10]⟩
abbrev S10 : Shape := ⟨1, ![10]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S128x20 : S_.BroadcastsInDim S128x20 (![] : Fin 0 → Fin S128x20.rank)
  reducesTo_S128x20_S_d0_1 : S128x20.ReducesTo [0, 1] S_
  bcast_S_S20x20 : S_.BroadcastsInDim S20x20 (![] : Fin 0 → Fin S20x20.rank)
  reducesTo_S20x20_S_d0_1 : S20x20.ReducesTo [0, 1] S_
  bcast_S_S20 : S_.BroadcastsInDim S20 (![] : Fin 0 → Fin S20.rank)
  reducesTo_S20_S_d0 : S20.ReducesTo [0] S_
  bcast_S_S60x10 : S_.BroadcastsInDim S60x10 (![] : Fin 0 → Fin S60x10.rank)
  reducesTo_S60x10_S_d0_1 : S60x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S60x10 .f32) (main_arg9 : FVec F S10 .f32) (main_v33 : IVec S_ 1) : IVec S_ 1 :=
  let main_v34 : FVec F S60x10 .f32 := Host.absf main_arg8
  let main_cst_12 : FVec F S_ .f32 := constant S_ .f32 0x7F800000#32
  let main_v35 : FVec F S60x10 .f32 := broadcastInDim S60x10 ![] bcast_S_S60x10 main_cst_12
  let main_v36 : IVec S60x10 1 := cmpf .olt main_v34 main_v35
  let main_c_13 : IVec S_ 1 := constantI S_ 1 1#1
  let main_v37 : IVec S_ 1 := (fun x v => Host.reduce IntOp.andi x v reducesTo_S60x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S20 .f32) (main_arg6 : FVec F S20 .f32) (main_arg7 : FVec F S20 .f32) (main_arg8 : FVec F S60x10 .f32) (main_arg9 : FVec F S10 .f32) (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20 .f32 := Host.absf main_arg7
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg8 main_arg9 main_v33

def fn {F : FTy → Type} [FloatOps F] (main_arg0 : FVec F S2048x128 .f32) (main_arg1 : IVec S2048x2048 32) (main_arg2 : FVec F S128x20 .f32) (main_arg3 : FVec F S20x20 .f32) (main_arg4 : FVec F S20x20 .f32) (main_arg5 : FVec F S20 .f32) (main_arg6 : FVec F S20 .f32) (main_arg7 : FVec F S20 .f32) (main_arg8 : FVec F S60x10 .f32) (main_arg9 : FVec F S10 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S128x20 .f32 := Host.absf main_arg2
  let main_cst_0 : FVec F S_ .f32 := constant S_ .f32 0x7F800000#32
  let main_v5 : FVec F S128x20 .f32 := broadcastInDim S128x20 ![] bcast_S_S128x20 main_cst_0
  let main_v6 : IVec S128x20 1 := cmpf .olt main_v4 main_v5
  let main_c_1 : IVec S_ 1 := constantI S_ 1 1#1
  let main_v7 : IVec S_ 1 := (fun x v => Host.reduce IntOp.andi x v reducesTo_S128x20_S_d0_1 h_S_) main_v6 main_c_1
  let main_v8 : IVec S_ 1 := andi main_v3 main_v7
  let main_v9 : FVec F S20x20 .f32 := Host.absf main_arg3
  let main_cst_2 : FVec F S_ .f32 := constant S_ .f32 0x7F800000#32
  let main_v10 : FVec F S20x20 .f32 := broadcastInDim S20x20 ![] bcast_S_S20x20 main_cst_2
  let main_v11 : IVec S20x20 1 := cmpf .olt main_v9 main_v10
  let main_c_3 : IVec S_ 1 := constantI S_ 1 1#1
  let main_v12 : IVec S_ 1 := (fun x v => Host.reduce IntOp.andi x v reducesTo_S20x20_S_d0_1 h_S_) main_v11 main_c_3
  let main_v13 : IVec S_ 1 := andi main_v8 main_v12
  let main_v14 : FVec F S20x20 .f32 := Host.absf main_arg4
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_arg5 main_arg6 main_arg7 main_arg8 main_arg9 main_v13 main_v16
-- ==== Kernel.lean ====
abbrev S2048x128 : Shape := ⟨2, ![2048, 128]⟩
abbrev S2048x2048 : Shape := ⟨2, ![2048, 2048]⟩
abbrev S128x20 : Shape := ⟨2, ![128, 20]⟩
abbrev S20x20 : Shape := ⟨2, ![20, 20]⟩
abbrev S20 : Shape := ⟨1, ![20]⟩
abbrev S60x10 : Shape := ⟨2, ![60, 10]⟩
abbrev S10 : Shape := ⟨1, ![10]⟩
abbrev S128x2048 : Shape := ⟨2, ![128, 2048]⟩
abbrev S20x128 : Shape := ⟨2, ![20, 128]⟩
abbrev S20x1 : Shape := ⟨2, ![20, 1]⟩
abbrev S10x60 : Shape := ⟨2, ![10, 60]⟩
abbrev S10x1 : Shape := ⟨2, ![10, 1]⟩
abbrev S10x2048 : Shape := ⟨2, ![10, 2048]⟩
abbrev S20x2048 : Shape := ⟨2, ![20, 2048]⟩
abbrev S10x20 : Shape := ⟨2, ![10, 20]⟩
abbrev S2048 : Shape := ⟨1, ![2048]⟩
abbrev S1x2048 : Shape := ⟨2, ![1, 2048]⟩
abbrev S2048x10 : Shape := ⟨2, ![2048, 10]⟩

abbrev nBuf : Space → Nat
  | .hbm => 21
  | .vmem => 11
  | .smem => 0
  | _ => 0

abbrev bufTy : (tb : Table) → Fin (tcTables nBuf tb) → BufTy
  | .hbm, ⟨0, _⟩ => ⟨S2048x128, .f32⟩
  | .hbm, ⟨1, _⟩ => ⟨S2048x2048, .i32⟩
  | .hbm, ⟨2, _⟩ => ⟨S128x20, .f32⟩
  | .hbm, ⟨3, _⟩ => ⟨S20x20, .f32⟩
  | .hbm, ⟨4, _⟩ => ⟨S20x20, .f32⟩
  | .hbm, ⟨5, _⟩ => ⟨S20, .f32⟩
  | .hbm, ⟨6, _⟩ => ⟨S20, .f32⟩
  | .hbm, ⟨7, _⟩ => ⟨S20, .f32⟩
  | .hbm, ⟨8, _⟩ => ⟨S60x10, .f32⟩
  | .hbm, ⟨9, _⟩ => ⟨S10, .f32⟩
  | .hbm, ⟨10, _⟩ => ⟨S128x2048, .f32⟩
  | .hbm, ⟨11, _⟩ => ⟨S20x128, .f32⟩
  | .hbm, ⟨12, _⟩ => ⟨S20x20, .f32⟩
  | .hbm, ⟨13, _⟩ => ⟨S20x20, .f32⟩
  | .hbm, ⟨14, _⟩ => ⟨S20x1, .f32⟩
  | .hbm, ⟨15, _⟩ => ⟨S20x1, .f32⟩
  | .hbm, ⟨16, _⟩ => ⟨S20x1, .f32⟩
  | .hbm, ⟨17, _⟩ => ⟨S10x60, .f32⟩
  | .hbm, ⟨18, _⟩ => ⟨S10x1, .f32⟩
  | .hbm, ⟨19, _⟩ => ⟨S10x2048, .f32⟩
  | .hbm, ⟨20, _⟩ => ⟨S2048x10, .f32⟩
  | .local _ .vmem, ⟨0, _⟩ => ⟨S2048x2048, .i32⟩
  | .local _ .vmem, ⟨1, _⟩ => ⟨S128x2048, .f32⟩
  | .local _ .vmem, ⟨2, _⟩ => ⟨S20x128, .f32⟩
  | .local _ .vmem, ⟨3, _⟩ => ⟨S20x20, .f32⟩
  | .local _ .vmem, ⟨4, _⟩ => ⟨S20x20, .f32⟩
  | .local _ .vmem, ⟨5, _⟩ => ⟨S20x1, .f32⟩
  | .local _ .vmem, ⟨6, _⟩ => ⟨S20x1, .f32⟩
  | .local _ .vmem, ⟨7, _⟩ => ⟨S20x1, .f32⟩
  | .local _ .vmem, ⟨8, _⟩ => ⟨S10x60, .f32⟩
  | .local _ .vmem, ⟨9, _⟩ => ⟨S10x1, .f32⟩
  | .local _ .vmem, ⟨10, _⟩ => ⟨S10x2048, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

class Facts₀ : Prop where
  transposes_S2048x128_S128x2048_1_0 : S2048x128.Transposes [1, 0] S128x2048
  transposes_S128x20_S20x128_1_0 : S128x20.Transposes [1, 0] S20x128
  transposes_S20x20_S20x20_1_0 : S20x20.Transposes [1, 0] S20x20
  bcast_S20_S20x1_0 : S20.BroadcastsInDim S20x1 (![0] : Fin 1 → Fin S20x1.rank)
  transposes_S60x10_S10x60_1_0 : S60x10.Transposes [1, 0] S10x60
  bcast_S10_S10x1_0 : S10.BroadcastsInDim S10x1 (![0] : Fin 1 → Fin S10x1.rank)
  inb_S2048x2048_S2048x2048_0_0 : ∀ a, (![0, 0] : Fin 2 → Nat) a + S2048x2048.size a ≤ S2048x2048.size a
  h_S2048x2048 : 0 < S2048x2048.numel
  inb_S20x128_S20x128_0_0 : ∀ a, (![0, 0] : Fin 2 → Nat) a + S20x128.size a ≤ S20x128.size a
  h_S20x128 : 0 < S20x128.numel
  shapeCasts_S20x128_S20x128 : S20x128.ShapeCasts S20x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x2048 : S20x1.Broadcasts S20x2048
  inb_S20x20_S20x20_0_0 : ∀ a, (![0, 0] : Fin 2 → Nat) a + S20x20.size a ≤ S20x20.size a
  h_S20x20 : 0 < S20x20.numel
  shapeCasts_S20x20_S20x20 : S20x20.ShapeCasts S20x20
  inb_S10x60_S10x60_0_0 : ∀ a, (![0, 0] : Fin 2 → Nat) a + S10x60.size a ≤ S10x60.size a
  h_S10x60 : 0 < S10x60.numel
  shapeCasts_S10x60_S10x60 : S10x60.ShapeCasts S10x60
  slices_S10x60_o0_0_S10x20 : S10x60.Slices ![0, 0] S10x20
  slices_S10x60_o0_20_S10x20 : S10x60.Slices ![0, 20] S10x20
  slices_S10x60_o0_40_S10x20 : S10x60.Slices ![0, 40] S10x20
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x2048 : S10x1.Broadcasts S10x2048
  reduces_S10x2048_S2048 : S10x2048.Reduces [0] S2048
  shapeCasts_S2048_S1x2048 : S2048.ShapeCasts S1x2048
  broadcasts_S1x2048_S10x2048 : S1x2048.Broadcasts S10x2048
  inb_S10x2048_S10x2048_0_0 : ∀ a, (![0, 0] : Fin 2 → Nat) a + S10x2048.size a ≤ S10x2048.size a
  h_S10x2048 : 0 < S10x2048.numel
  transposes_S10x2048_S2048x10_1_0 : S10x2048.Transposes [1, 0] S2048x10
  dot_S20x128_S128x2048_S20x2048_1_0_0_1_n_n_wf : DotDims.WF S20x128 S128x2048 S20x2048 [1] [0] [0] [1] [] []
  dot_S20x2048_S2048x2048_S20x2048_1_0_0_1_n_n_wf : DotDims.WF S20x2048 S2048x2048 S20x2048 [1] [0] [0] [1] [] []
  dot_S20x20_S20x2048_S20x2048_1_0_0_1_n_n_wf : DotDims.WF S20x20 S20x2048 S20x2048 [1] [0] [0] [1] [] []
  dot_S10x20_S20x2048_S10x2048_1_0_0_1_n_n_wf : DotDims.WF S10x20 S20x2048 S10x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole

variable [Facts₀]

def dot_S20x128_S128x2048_S20x2048_1_0_0_1_n_n : DotDims S20x128 S128x2048 S20x2048 where
  lhsContracting := [1]
  rhsContracting := [0]
  lhsNonContracting := [0]
  rhsNonContracting := [1]
  lhsBatch := []
  rhsBatch := []
  wf := dot_S20x128_S128x2048_S20x2048_1_0_0_1_n_n_wf
def dot_S20x2048_S2048x2048_S20x2048_1_0_0_1_n_n : DotDims S20x2048 S2048x2048 S20x2048 where
  lhsContracting := [1]
  rhsContracting := [0]
  lhsNonContracting := [0]
  rhsNonContracting := [1]
  lhsBatch := []
  rhsBatch := []
  wf := dot_S20x2048_S2048x2048_S20x2048_1_0_0_1_n_n_wf
def dot_S20x20_S20x2048_S20x2048_1_0_0_1_n_n : DotDims S20x20 S20x2048 S20x2048 where
  lhsContracting := [1]
  rhsContracting := [0]
  lhsNonContracting := [0]
  rhsNonContracting := [1]
  lhsBatch := []
  rhsBatch := []
  wf := dot_S20x20_S20x2048_S20x2048_1_0_0_1_n_n_wf
def dot_S10x20_S20x2048_S10x2048_1_0_0_1_n_n : DotDims S10x20 S20x2048 S10x2048 where
  lhsContracting := [1]
  rhsContracting := [0]
  lhsNonContracting := [0]
  rhsNonContracting := [1]
  lhsBatch := []
  rhsBatch := []
  wf := dot_S10x20_S20x2048_S10x2048_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) false false (stage0_3 0) (sem0_3 0) (Memref.isWhole_whole _) (hstage0_3 0)

abbrev win0_4 : Pipeline.Window sig grid0 :=
  Pipeline.Window.whole (Memref.whole main_v3) false false (stage0_4 0) (sem0_4 0) (Memref.isWhole_whole _) (hstage0_4 0)

abbrev win0_5 : Pipeline.Window sig grid0 :=
  Pipeline.Window.whole (Memref.whole main_v4) false false (stage0_5 0) (sem0_5 0) (Memref.isWhole_whole _) (hstage0_5 0)

abbrev win0_6 : Pipeline.Window sig grid0 :=
  Pipeline.Window.whole (Memref.whole main_v5) false false (stage0_6 0) (sem0_6 0) (Memref.isWhole_whole _) (hstage0_6 0)

abbrev win0_7 : Pipeline.Window sig grid0 :=
  Pipeline.Window.whole (Memref.whole main_v6) false false (stage0_7 0) (sem0_7 0) (Memref.isWhole_whole _) (hstage0_7 0)

abbrev win0_8 : Pipeline.Window sig grid0 :=
  Pipeline.Window.whole (Memref.whole main_v7) false false (stage0_8 0) (sem0_8 0) (Memref.isWhole_whole _) (hstage0_8 0)

abbrev win0_9 : Pipeline.Window sig grid0 :=
  Pipeline.Window.whole (Memref.whole main_v8) false false (stage0_9 0) (sem0_9 0) (Memref.isWhole_whole _) (hstage0_9 0)

abbrev win0_10 : Pipeline.Window sig grid0 :=
  Pipeline.Window.whole (Memref.whole main_v9) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048x2048 : Shape := ⟨2, ![2048, 2048]⟩
abbrev S128x20 : Shape := ⟨2, ![128, 20]⟩
abbrev S20x20 : Shape := ⟨2, ![20, 20]⟩
abbrev S20 : Shape := ⟨1, ![20]⟩
abbrev S60x10 : Shape := ⟨2, ![60, 10]⟩
abbrev S10 : Shape := ⟨1, ![10]⟩
abbrev S4194304 : Shape := ⟨1, ![4194304]⟩
abbrev S_ : Shape := ⟨0, ![]⟩
abbrev S2048x20 : Shape := ⟨2, ![2048, 20]⟩
abbrev S4194304x1 : Shape := ⟨2, ![4194304, 1]⟩
abbrev S4194304x20 : Shape := ⟨2, ![4194304, 20]⟩
abbrev S1x20 : Shape := ⟨2, ![1, 20]⟩
abbrev S2048x60 : Shape := ⟨2, ![2048, 60]⟩
abbrev S2048x10 : Shape := ⟨2, ![2048, 10]⟩
abbrev S1x10 : Shape := ⟨2, ![1, 10]⟩
abbrev S2048 : Shape := ⟨1, ![2048]⟩
abbrev S2048x1 : Shape := ⟨2, ![2048, 1]⟩

abbrev nBuf : Space → Nat
  | .hbm => 139
  | .vmem => 0
  | .smem => 0
  | _ => 0

abbrev hbmTy0_0 (i : Nat) : BufTy := match i % 128 with
  | 0 => ⟨S2048x128, .f32⟩
  | 1 => ⟨S2048x2048, .i32⟩
  | 2 => ⟨S128x20, .f32⟩
  | 3 => ⟨S20x20, .f32⟩
  | 4 => ⟨S20x20, .f32⟩
  | 5 => ⟨S20, .f32⟩
  | 6 => ⟨S20, .f32⟩
  | 7 => ⟨S20, .f32⟩
  | 8 => ⟨S60x10, .f32⟩
  | 9 => ⟨S10, .f32⟩
  | 10 => ⟨S4194304, .i32⟩
  | 11 => ⟨S_, .i32⟩
  | 12 => ⟨S_, .i32⟩
  | 13 => ⟨S4194304, .i32⟩
  | 14 => ⟨S4194304, .i32⟩
  | 15 => ⟨S4194304, .i32⟩
  | 16 => ⟨S_, .i32⟩
  | 17 => ⟨S4194304, .i32⟩
  | 18 => ⟨S4194304, .i1⟩
  | 19 => ⟨S4194304, .i32⟩
  | 20 => ⟨S4194304, .i32⟩
  | 21 => ⟨S_, .i32⟩
  | 22 => ⟨S4194304, .i32⟩
  | 23 => ⟨S4194304, .i1⟩
  | 24 => ⟨S4194304, .i1⟩
  | 25 => ⟨S_, .i32⟩
  | 26 => ⟨S4194304, .i32⟩
  | 27 => ⟨S4194304, .i32⟩
  | 28 => ⟨S4194304, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4194304, .i32⟩
  | 36 => ⟨S4194304, .i32⟩
  | 37 => ⟨S_, .i32⟩
  | 38 => ⟨S4194304, .i32⟩
  | 39 => ⟨S4194304, .i1⟩
  | 40 => ⟨S_, .i32⟩
  | 41 => ⟨S4194304, .i32⟩
  | 42 => ⟨S4194304, .i1⟩
  | 43 => ⟨S_, .i32⟩
  | 44 => ⟨S_, .i1⟩
  | 45 => ⟨S4194304, .i1⟩
  | 46 => ⟨S4194304, .i1⟩
  | 47 => ⟨S4194304, .i1⟩
  | 48 => ⟨S4194304, .i32⟩
  | 49 => ⟨S4194304, .i32⟩
  | 50 => ⟨S4194304, .i32⟩
  | 51 => ⟨S4194304, .i32⟩
  | 52 => ⟨S4194304, .f32⟩
  | 53 => ⟨S2048x20, .f32⟩
  | 54 => ⟨S_, .i32⟩
  | 55 => ⟨S4194304, .i32⟩
  | 56 => ⟨S4194304, .i1⟩
  | 57 => ⟨S_, .i32⟩
  | 58 => ⟨S4194304, .i32⟩
  | 59 => ⟨S4194304, .i32⟩
  | 60 => ⟨S4194304, .i32⟩
  | 61 => ⟨S4194304x1, .i32⟩
  | 62 => ⟨S4194304x20, .f32⟩
  | 63 => ⟨S4194304x1, .f32⟩
  | 64 => ⟨S4194304x20, .f32⟩
  | 65 => ⟨S4194304x20, .f32⟩
  | 66 => ⟨S_, .f32⟩
  | 67 => ⟨S2048x20, .f32⟩
  | 68 => ⟨S4194304x1, .i32⟩
  | 69 => ⟨S2048x20, .f32⟩
  | 70 => ⟨S1x20, .f32⟩
  | 71 => ⟨S2048x20, .f32⟩
  | 72 => ⟨S2048x20, .f32⟩
  | 73 => ⟨S_, .f32⟩
  | 74 => ⟨S2048x20, .f32⟩
  | 75 => ⟨S2048x20, .f32⟩
  | 76 => ⟨S2048x20, .f32⟩
  | 77 => ⟨S_, .i32⟩
  | 78 => ⟨S4194304, .i32⟩
  | 79 => ⟨S4194304, .i1⟩
  | 80 => ⟨S_, .i32⟩
  | 81 => ⟨S4194304, .i32⟩
  | 82 => ⟨S4194304, .i32⟩
  | 83 => ⟨S4194304, .i32⟩
  | 84 => ⟨S4194304x1, .i32⟩
  | 85 => ⟨S4194304x20, .f32⟩
  | 86 => ⟨S4194304x1, .f32⟩
  | 87 => ⟨S4194304x20, .f32⟩
  | 88 => ⟨S4194304x20, .f32⟩
  | 89 => ⟨S_, .f32⟩
  | 90 => ⟨S2048x20, .f32⟩
  | 91 => ⟨S4194304x1, .i32⟩
  | 92 => ⟨S2048x20, .f32⟩
  | 93 => ⟨S1x20, .f32⟩
  | 94 => ⟨S2048x20, .f32⟩
  | 95 => ⟨S2048x20, .f32⟩
  | 96 => ⟨S_, .f32⟩
  | 97 => ⟨S2048x20, .f32⟩
  | 98 => ⟨S2048x20, .f32⟩
  | 99 => ⟨S2048x20, .f32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i32⟩
  | 106 => ⟨S4194304, .i32⟩
  | 107 => ⟨S4194304x1, .i32⟩
  | 108 => ⟨S4194304x20, .f32⟩
  | 109 => ⟨S4194304x1, .f32⟩
  | 110 => ⟨S4194304x20, .f32⟩
  | 111 => ⟨S4194304x20, .f32⟩
  | 112 => ⟨S_, .f32⟩
  | 113 => ⟨S2048x20, .f32⟩
  | 114 => ⟨S4194304x1, .i32⟩
  | 115 => ⟨S2048x20, .f32⟩
  | 116 => ⟨S1x20, .f32⟩
  | 117 => ⟨S2048x20, .f32⟩
  | 118 => ⟨S2048x20, .f32⟩
  | 119 => ⟨S2048x60, .f32⟩
  | 120 => ⟨S2048x10, .f32⟩
  | 121 => ⟨S1x10, .f32⟩
  | 122 => ⟨S2048x10, .f32⟩
  | 123 => ⟨S2048x10, .f32⟩
  | 124 => ⟨S_, .f32⟩
  | 125 => ⟨S2048, .f32⟩
  | 126 => ⟨S_, .f32⟩
  | 127 => ⟨S2048, .f32⟩
  | _ => ⟨S2048x128, .f32⟩

abbrev hbmTy0_1 (i : Nat) : BufTy := match i % 128 with
  | 0 => ⟨S2048, .f32⟩
  | 1 => ⟨S2048x1, .f32⟩
  | 2 => ⟨S2048x10, .f32⟩
  | 3 => ⟨S2048x10, .f32⟩
  | 4 => ⟨S2048x10, .f32⟩
  | 5 => ⟨S_, .f32⟩
  | 6 => ⟨S2048, .f32⟩
  | 7 => ⟨S2048x1, .f32⟩
  | 8 => ⟨S2048x1, .f32⟩
  | 9 => ⟨S2048x10, .f32⟩
  | 10 => ⟨S2048x10, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_c_1 : Ref sig .tc := ⟨.hbm, 54, rfl⟩
abbrev main_v6 : Ref sig .tc := ⟨.hbm, 55, rfl⟩
abbrev main_v7 : Ref sig .tc := ⟨.hbm, 56, rfl⟩
abbrev main_c_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_call2_cst : Ref sig .tc := ⟨.hbm, 73, rfl⟩
abbrev main_call2_v0 : Ref sig .tc := ⟨.hbm, 74, rfl⟩
abbrev main_v22 : Ref sig .tc := ⟨.hbm, 75, rfl⟩
abbrev main_v23 : Ref sig .tc := ⟨.hbm, 76, rfl⟩
abbrev main_c_3 : Ref sig .tc := ⟨.hbm, 77, rfl⟩
abbrev main_v24 : Ref sig .tc := ⟨.hbm, 78, rfl⟩
abbrev main_v25 : Ref sig .tc := ⟨.hbm, 79, rfl⟩
abbrev main_c_4 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_5 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_call3_cst : Ref sig .tc := ⟨.hbm, 96, rfl⟩
abbrev main_call3_v0 : Ref sig .tc := ⟨.hbm, 97, rfl⟩
abbrev main_v40 : Ref sig .tc := ⟨.hbm, 98, rfl⟩
abbrev main_v41 : Ref sig .tc := ⟨.hbm, 99, rfl⟩
abbrev main_c_6 : Ref sig .tc := ⟨.hbm, 100, rfl⟩
abbrev main_v42 : Ref sig .tc := ⟨.hbm, 101, rfl⟩
abbrev main_v43 : Ref sig .tc := ⟨.hbm, 102, rfl⟩
abbrev main_c_7 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_8 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_call4_cst : Ref sig .tc := ⟨.hbm, 124, rfl⟩
abbrev main_call4_v0 : Ref sig .tc := ⟨.hbm, 125, rfl⟩
abbrev main_call4_cst_0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_v6 : Ref sig .tc := ⟨.hbm, 132, rfl⟩
abbrev main_call4_cst_1 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_v63 : Ref sig .tc := ⟨.hbm, 138, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  shapeCasts_S2048x2048_S4194304 : S2048x2048.ShapeCasts S4194304
  bcast_S4194304_S4194304x1_0 : S4194304.BroadcastsInDim S4194304x1 (![0] : Fin 1 → Fin S4194304x1.rank)
  bcast_S4194304x1_S4194304x20_0_1 : S4194304x1.BroadcastsInDim S4194304x20 (![0, 1] : Fin 2 → Fin S4194304x20.rank)
  bcast_S_S2048x20 : S_.BroadcastsInDim S2048x20 (![] : Fin 0 → Fin S2048x20.rank)
  bcast_S20_S1x20_1 : S20.BroadcastsInDim S1x20 (![1] : Fin 1 → Fin S1x20.rank)
  bcast_S1x20_S2048x20_0_1 : S1x20.BroadcastsInDim S2048x20 (![0, 1] : Fin 2 → Fin S2048x20.rank)
  concatenates_S2048x20_S2048x20_S2048x20_S2048x60_d1 : Shape.Concatenates [S2048x20, S2048x20, S2048x20] S2048x60 1
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  reducesTo_S2048x10_S2048_d1 : S2048x10.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  dot_S2048x128_S128x20_S2048x20_1_0_0_1_n_n_wf : DotDims.WF S2048x128 S128x20 S2048x20 [1] [0] [0] [1] [] []
  gather_S2048x20_S4194304x1_S4194304x20_1_0_n_n_0_1_120_wf : GatherDims.WF S2048x20 S4194304x1 S4194304x20 [1] [0] [] [0] [] 1 ![1, 20]
  scatter_S2048x20_S4194304x1_S4194304x20_1_0_0_1_wf : ScatterDims.WF S2048x20 S4194304x1 S4194304x20 [1] [0] [0] 1
  dot_S2048x20_S20x20_S2048x20_1_0_0_1_n_n_wf : DotDims.WF S2048x20 S20x20 S2048x20 [1] [0] [0] [1] [] []
  dot_S2048x60_S60x10_S2048x10_1_0_0_1_n_n_wf : DotDims.WF S2048x60 S60x10 S2048x10 [1] [0] [0] [1] [] []

variable [Facts₀]

def dot_S2048x128_S128x20_S2048x20_1_0_0_1_n_n : DotDims S2048x128 S128x20 S2048x20 where
  lhsContracting := [1]
  rhsContracting := [0]
  lhsNonContracting := [0]
  rhsNonContracting := [1]
  lhsBatch := []
  rhsBatch := []
  wf := dot_S2048x128_S128x20_S2048x20_1_0_0_1_n_n_wf
def gather_S2048x20_S4194304x1_S4194304x20_1_0_n_n_0_1_120 : GatherDims S2048x20 S4194304x1 S4194304x20 where
  offsetDims := [1]
  collapsedSliceDims := [0]
  operandBatchingDims := []
  startIndicesBatchingDims := []
  startIndexMap := [0]
  indexVectorDim := 1
  sliceSizes := ![1, 20]
  wf := gather_S2048x20_S4194304x1_S4194304x20_1_0_n_n_0_1_120_wf
def scatter_S2048x20_S4194304x1_S4194304x20_1_0_0_1 : ScatterDims S2048x20 S4194304x1 S4194304x20 where
  updateWindowDims := [1]
  insertedWindowDims := [0]
  scatterDimsToOperandDims := [0]
  indexVectorDim := 1
  wf := scatter_S2048x20_S4194304x1_S4194304x20_1_0_0_1_wf
def dot_S2048x20_S20x20_S2048x20_1_0_0_1_n_n : DotDims S2048x20 S20x20 S2048x20 where
  lhsContracting := [1]
  rhsContracting := [0]
  lhsNonContracting := [0]
  rhsNonContracting := [1]
  lhsBatch := []
  rhsBatch := []
  wf := dot_S2048x20_S20x20_S2048x20_1_0_0_1_n_n_wf
def dot_S2048x60_S60x10_S2048x10_1_0_0_1_n_n : DotDims S2048x60 S60x10 S2048x10 where
  lhsContracting := [1]
  rhsContracting := [0]
  lhsNonContracting := [0]
  rhsNonContracting := [1]
  lhsBatch := []
  rhsBatch := []
  wf := dot_S2048x60_S60x10_S2048x10_1_0_0_1_n_n_wf

class Facts : Prop extends Facts₀ where

variable [Facts]
-- ==== Proof.GcnSpec.lean ====
/-
  The network both programs compute, written once over plain coordinates. From node features X (2048 × 128), a dense
  adjacency A (2048 × 2048, entry (r, c) the weight of the edge from r to c), three weight matrices, three biases and a
  linear head: a graph convolution takes features h to the rows (A^T (h W))(c, ·) = Σ_r (h W)(r, ·) · A(r, c), plus a bias;
  the first two layers are followed by max(·, 0). The three layers' outputs side by side (60 columns) go through the
  head, and each node's ten logits through a log-softmax: l − max l − log Σ exp (l − max l).
-/
import Mathlib.Data.EReal.Basic
import Mathlib.Algebra.BigOperators.Fin
import Idealize.ShloMosaic.PureOps.Ideal
import Idealize.ShloMosaic.Lib.ValueIdx

open scoped BigOperators

noncomputable section

namespace Cert.Gcn

open Idealize.ShloMosaic Idealize.ShloMosaic.ValueIdx

/-- The linear transform of the features: (x W)(r, f) = Σ_k x(r, k) · W(k, f). -/
def lin {K : Nat} (x : Fin 2048 → Fin K → EReal) (W : Fin K → Fin 20 → EReal) (r : Fin 2048) (f : Fin 20) : EReal :=
  ∑ k : Fin K, x r k * W k f

/-- The aggregation over incoming edges: node c receives Σ_r h(r, f) · A(r, c). -/
def agg (A : Fin 2048 → Fin 2048 → EReal) (h : Fin 2048 → Fin 20 → EReal) (c : Fin 2048) (f : Fin 20) : EReal :=
  ∑ r : Fin 2048, h r f * A r c

/-- One graph convolution with its bias, before any nonlinearity. -/
def conv {K : Nat} (A : Fin 2048 → Fin 2048 → EReal) (x : Fin 2048 → Fin K → EReal) (W : Fin K → Fin 20 → EReal)
    (b : Fin 20 → EReal) (c : Fin 2048) (f : Fin 20) : EReal :=
  agg A (lin x W) c f + b f

/-- A convolution followed by max(·, 0). -/
def convRelu {K : Nat} (A : Fin 2048 → Fin 2048 → EReal) (x : Fin 2048 → Fin K → EReal) (W : Fin K → Fin 20 → EReal)
    (b : Fin 20 → EReal) (c : Fin 2048) (f : Fin 20) : EReal :=
  max (conv A x W b c f) 0

/-- Three 20-column blocks side by side: column k of the 60 is column k, k − 20 or k − 40 of the first, second or third. -/
def feats (u v w : Fin 2048 → Fin 20 → EReal) (n : Fin 2048) (k : Fin 60) : EReal :=
  if h : k.val < 20 then u n ⟨k.val, h⟩
  else if h' : k.val < 40 then v n ⟨k.val - 20, by omega⟩
  else w n ⟨k.val - 40, by omega⟩

/-- The head: Σ_k feats(n, k) · LW(k, j) + lb(j). -/
def logit (u v w : Fin 2048 → Fin 20 → EReal) (LW : Fin 60 → Fin 10 → EReal) (lb : Fin 10 → EReal)
    (n : Fin 2048) (j : Fin 10) : EReal :=
  (∑ k : Fin 60, feats u v w n k * LW k j) + lb j

/-- The log-softmax of ten logits, shifted by their maximum. -/
def lsm (l : Fin 10 → EReal) (j : Fin 10) : EReal :=
  (l j - Finset.univ.fold max (⊥ : EReal) l)
    - Ideal.log (∑ j' : Fin 10, Ideal.exp (l j' - Finset.univ.fold max (⊥ : EReal) l))

/-- The three layers' outputs. -/
def x1 (X : Fin 2048 → Fin 128 → EReal) (A : Fin 2048 → Fin 2048 → EReal) (W1 : Fin 128 → Fin 20 → EReal)
    (b1 : Fin 20 → EReal) : Fin 2048 → Fin 20 → EReal := convRelu A X W1 b1
def x2 (X : Fin 2048 → Fin 128 → EReal) (A : Fin 2048 → Fin 2048 → EReal) (W1 : Fin 128 → Fin 20 → EReal)
    (W2 : Fin 20 → Fin 20 → EReal) (b1 b2 : Fin 20 → EReal) : Fin 2048 → Fin 20 → EReal :=
  convRelu A (x1 X A W1 b1) W2 b2
def x3 (X : Fin 2048 → Fin 128 → EReal) (A : Fin 2048 → Fin 2048 → EReal) (W1 : Fin 128 → Fin 20 → EReal)
    (W2 W3 : Fin 20 → Fin 20 → EReal) (b1 b2 b3 : Fin 20 → EReal) : Fin 2048 → Fin 20 → EReal :=
  conv A (x2 X A W1 W2 b1 b2) W3 b3

/-- The whole network at node n and class j. -/
def val (X : Fin 2048 → Fin 128 → EReal) (A : Fin 2048 → Fin 2048 → EReal) (W1 : Fin 128 → Fin 20 → EReal)
    (W2 W3 : Fin 20 → Fin 20 → EReal) (b1 b2 b3 : Fin 20 → EReal) (LW : Fin 60 → Fin 10 → EReal) (lb : Fin 10 → EReal)
    (n : Fin 2048) (j : Fin 10) : EReal :=
  lsm (logit (x1 X A W1 b1) (x2 X A W1 W2 b1 b2) (x3 X A W1 W2 W3 b1 b2 b3) LW lb n) j

/-- The network over arrays: the features, the adjacency's words read as signed integers, the weights and the biases by
    their coordinates; entry (n, j) of the result is node n's log-probability of class j. -/
def out (x : (⟨2, ![2048, 128]⟩ : Shape).Idx → EReal) (adj : (⟨2, ![2048, 2048]⟩ : Shape).Idx → BitVec 32)
    (W1 : (⟨2, ![128, 20]⟩ : Shape).Idx → EReal) (W2 W3 : (⟨2, ![20, 20]⟩ : Shape).Idx → EReal)
    (b1 b2 b3 : (⟨1, ![20]⟩ : Shape).Idx → EReal) (LW : (⟨2, ![60, 10]⟩ : Shape).Idx → EReal)
    (lb : (⟨1, ![10]⟩ : Shape).Idx → EReal) : (⟨2, ![2048, 10]⟩ : Shape).Idx → EReal :=
  fun i => val (fun r k => x (ix2 r k)) (fun r c => (((adj (ix2 r c)).toInt : ℝ) : EReal)) (fun k f => W1 (ix2 k f))
    (fun k f => W2 (ix2 k f)) (fun k f => W3 (ix2 k f)) (fun f => b1 (ix1 f)) (fun f => b2 (ix1 f)) (fun f => b3 (ix1 f))
    (fun k j => LW (ix2 k j)) (fun j => lb (ix1 j)) (i 0 : Fin 2048) (i 1 : Fin 10)

theorem out_apply (x : (⟨2, ![2048, 128]⟩ : Shape).Idx → EReal) (adj : (⟨2, ![2048, 2048]⟩ : Shape).Idx → BitVec 32)
    (W1 : (⟨2, ![128, 20]⟩ : Shape).Idx → EReal) (W2 W3 : (⟨2, ![20, 20]⟩ : Shape).Idx → EReal)
    (b1 b2 b3 : (⟨1, ![20]⟩ : Shape).Idx → EReal) (LW : (⟨2, ![60, 10]⟩ : Shape).Idx → EReal)
    (lb : (⟨1, ![10]⟩ : Shape).Idx → EReal) (n : Fin 2048) (j : Fin 10) :
    out x adj W1 W2 W3 b1 b2 b3 LW lb (ix2 n j)
      = val (fun r k => x (ix2 r k)) (fun r c => (((adj (ix2 r c)).toInt : ℝ) : EReal)) (fun k f => W1 (ix2 k f))
          (fun k f => W2 (ix2 k f)) (fun k f => W3 (ix2 k f)) (fun f => b1 (ix1 f)) (fun f => b2 (ix1 f)) (fun f => b3 (ix1 f))
          (fun k j => LW (ix2 k j)) (fun j => lb (ix1 j)) n j := rfl

/-- The head's sum over the 60 columns is the three blocks' sums, in order. -/
theorem sum_feats (u v w : Fin 2048 → Fin 20 → EReal) (LW : Fin 60 → Fin 10 → EReal) (n : Fin 2048) (j : Fin 10) :
    ∑ k : Fin 60, feats u v w n k * LW k j
      = (∑ k : Fin 20, u n k * LW ⟨k.val, by omega⟩ j + ∑ k : Fin 20, v n k * LW ⟨20 + k.val, by omega⟩ j)
        + ∑ k : Fin 20, w n k * LW ⟨40 + k.val, by omega⟩ j := by
  have e1 : ∑ k : Fin 60, feats u v w n k * LW k j = ∑ k : Fin (40 + 20), feats u v w n k * LW k j := rfl
  rw [e1, Fin.sum_univ_add]
  have e2 : ∑ k : Fin 40, feats u v w n (Fin.castAdd 20 k) * LW (Fin.castAdd 20 k) j
      = ∑ k : Fin (20 + 20), feats u v w n (Fin.castAdd 20 k) * LW (Fin.castAdd 20 k) j := rfl
  rw [e2, Fin.sum_univ_add]
  rfl

end Cert.Gcn

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KLayers.lean ====
/-
  The kernel's three layers read at an entry. The kernel keeps features down the rows and nodes along the columns, so
  entry (f, c) of each layer's array is GcnSpec's layer at node c and feature f, the operands read transposed.
  One lemma reads a layer before its nonlinearity (two products into the zero splat, then the bias column stretched
  along the nodes) as GcnSpec's convolution; the three layers are instances of it, each fed the previous one.
-/
import proofs.«111349_g36472862278099_cont_sun_m_1164_2_alg».proof.Proof.Gen.KernelIdeal.Skeleton
import proofs.«111349_g36472862278099_cont_sun_m_1164_2_alg».proof.Proof.GcnSpec
import proofs.«111349_g36472862278099_cont_sun_m_1164_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KLayers

open Idealize.ShloMosaic Idealize.ShloMosaic.ValueIdx Cert.KernelIdeal Cert.KernelIdeal.Gen

/-- The bias column stretched along the nodes reads, at (f, c), the column's entry (f, 0). -/
theorem bias_apply (b : FVec Ideal S20x1 .f32) (hb : S20x1.Broadcasts S20x2048) (f : Fin 20) (c : Fin 2048) :
    broadcastTo S20x2048 b hb (ix2 f c) = b (ix2 f 0) := by
  refine broadcastTo_apply b hb (ix2 f c) (ix2 f 0) ?_
  intro a
  match a with
  | ⟨0, _⟩ => rfl
  | ⟨1, _⟩ => rfl

/-- One layer before its nonlinearity, at (f, c): with the weights and the incoming features both transposed, the two
    products and the bias are GcnSpec's convolution at node c and feature f. -/
theorem layer_apply {K : Nat} (d : DotDims ⟨2, ![20, K]⟩ ⟨2, ![K, 2048]⟩ ⟨2, ![20, 2048]⟩)
    (w : DotDims.WF ⟨2, ![20, K]⟩ ⟨2, ![K, 2048]⟩ ⟨2, ![20, 2048]⟩ [1] [0] [0] [1] [] []) (hd : d = PlainMatmul.dims w)
    (x0 : Vec Ideal S2048x2048 .i32) (Wt : FVec Ideal ⟨2, ![20, K]⟩ .f32) (yT : FVec Ideal ⟨2, ![K, 2048]⟩ .f32)
    (b : FVec Ideal S20x1 .f32) (hb : S20x1.Broadcasts S20x2048) (f : Fin 20) (c : Fin 2048) :
    addf (matmul dot_S20x2048_S2048x2048_S20x2048_1_0_0_1_n_n (some .fp32)
          (matmul d (some .fp32) Wt yT (constant S20x2048 .f32 0x00000000#32)) (k0_pay2 (F := Ideal) x0)
          (constant S20x2048 .f32 0x00000000#32))
        (broadcastTo S20x2048 b hb) (ix2 f c)
      = Cert.Gcn.conv (fun r c => (((x0 (ix2 r c)).toInt : ℝ) : EReal)) (fun r k => yT (ix2 k r))
          (fun k f => Wt (ix2 f k)) (fun f => b (ix2 f 0)) c f := by
  rw [addf_apply, bias_apply,
    PlainMatmul.matmul_zero_apply dot_S20x2048_S2048x2048_S20x2048_1_0_0_1_n_n
      dot_S20x2048_S2048x2048_S20x2048_1_0_0_1_n_n.wf rfl]
  unfold Cert.Gcn.conv Cert.Gcn.agg Cert.Gcn.lin
  congr 1
  refine Finset.sum_congr rfl fun r _ => ?_
  rw [PlainMatmul.matmul_zero_apply d w hd]
  congr 1
  refine Finset.sum_congr rfl fun k _ => ?_
  exact mul_comm _ _

theorem pay3_apply (x0 : Vec Ideal S2048x2048 .i32) (x2 : Vec Ideal S20x128 .f32) (x1 : Vec Ideal S128x2048 .f32)
    (x5 : Vec Ideal S20x1 .f32) (f : Fin 20) (c : Fin 2048) :
    k0_pay3 (F := Ideal) x0 x2 x1 x5 (ix2 f c)
      = Cert.Gcn.x1 (fun r k => x1 (ix2 k r)) (fun r c => (((x0 (ix2 r c)).toInt : ℝ) : EReal)) (fun k f => x2 (ix2 f k)) (fun f => x5 (ix2 f 0)) c f := by
  unfold k0_pay3
  rw [shapeCast_self, shapeCast_self, shapeCast_self, maximumf_apply, broadcast_apply,
    layer_apply dot_S20x128_S128x2048_S20x2048_1_0_0_1_n_n dot_S20x128_S128x2048_S20x2048_1_0_0_1_n_n.wf rfl]
  unfold Cert.Gcn.x1 Cert.Gcn.convRelu
  congr 1
  exact Ideal.ofBits_zero_f32

theorem pay4_apply (x0 : Vec Ideal S2048x2048 .i32) (x2 : Vec Ideal S20x128 .f32) (x1 : Vec Ideal S128x2048 .f32)
    (x5 : Vec Ideal S20x1 .f32) (x3 : Vec Ideal S20x20 .f32) (x6 : Vec Ideal S20x1 .f32) (f : Fin 20) (c : Fin 2048) :
    k0_pay4 (F := Ideal) x0 x2 x1 x5 x3 x6 (ix2 f c)
      = Cert.Gcn.x2 (fun r k => x1 (ix2 k r)) (fun r c => (((x0 (ix2 r c)).toInt : ℝ) : EReal)) (fun k f => x2 (ix2 f k)) (fun k f => x3 (ix2 f k))
          (fun f => x5 (ix2 f 0)) (fun f => x6 (ix2 f 0)) c f := by
  have hx : (fun (r : Fin 2048) (k : Fin 20) => k0_pay3 (F := Ideal) x0 x2 x1 x5 (ix2 k r))
      = Cert.Gcn.x1 (fun r k => x1 (ix2 k r)) (fun r c => (((x0 (ix2 r c)).toInt : ℝ) : EReal)) (fun k f => x2 (ix2 f k))
          (fun f => x5 (ix2 f 0)) := by
    funext r k
    exact pay3_apply x0 x2 x1 x5 k r
  unfold k0_pay4
  rw [shapeCast_self, shapeCast_self, maximumf_apply, broadcast_apply,
    layer_apply dot_S20x20_S20x2048_S20x2048_1_0_0_1_n_n dot_S20x20_S20x2048_S20x2048_1_0_0_1_n_n.wf rfl, hx]
  unfold Cert.Gcn.x2 Cert.Gcn.convRelu
  congr 1
  exact Ideal.ofBits_zero_f32

theorem pay5_apply (x0 : Vec Ideal S2048x2048 .i32) (x2 : Vec Ideal S20x128 .f32) (x1 : Vec Ideal S128x2048 .f32)
    (x5 : Vec Ideal S20x1 .f32) (x3 : Vec Ideal S20x20 .f32) (x6 : Vec Ideal S20x1 .f32) (x4 : Vec Ideal S20x20 .f32)
    (x7 : Vec Ideal S20x1 .f32) (f : Fin 20) (c : Fin 2048) :
    k0_pay5 (F := Ideal) x0 x2 x1 x5 x3 x6 x4 x7 (ix2 f c)
      = Cert.Gcn.x3 (fun r k => x1 (ix2 k r)) (fun r c => (((x0 (ix2 r c)).toInt : ℝ) : EReal)) (fun k f => x2 (ix2 f k)) (fun k f => x3 (ix2 f k))
          (fun k f => x4 (ix2 f k)) (fun f => x5 (ix2 f 0)) (fun f => x6 (ix2 f 0)) (fun f => x7 (ix2 f 0)) c f := by
  have hx : (fun (r : Fin 2048) (k : Fin 20) => k0_pay4 (F := Ideal) x0 x2 x1 x5 x3 x6 (ix2 k r))
      = Cert.Gcn.x2 (fun r k => x1 (ix2 k r)) (fun r c => (((x0 (ix2 r c)).toInt : ℝ) : EReal)) (fun k f => x2 (ix2 f k))
          (fun k f => x3 (ix2 f k)) (fun f => x5 (ix2 f 0)) (fun f => x6 (ix2 f 0)) := by
    funext r k
    exact pay4_apply x0 x2 x1 x5 x3 x6 k r
  unfold k0_pay5
  rw [shapeCast_self, shapeCast_self,
    layer_apply dot_S20x20_S20x2048_S20x2048_1_0_0_1_n_n dot_S20x20_S20x2048_S20x2048_1_0_0_1_n_n.wf rfl, hx]
  rfl

end Cert.KernelIdeal.KLayers

end
-- ==== Proof.KHead.lean ====
/-
  The kernel's head and log-softmax read at an entry, in its transposed layout: entry (j, n) is GcnSpec's log-softmax
  at class j of node n's logits, the head's 60 columns taken as three blocks of 20. The value splits into two stages,
  each read at an entry: the logits (three 10 × 20 by 20 × 2048 products summed in order, plus the bias column), and the
  log-softmax over the ten classes of one node (a maximum and a sum along axis 0).
-/
import proofs.«111349_g36472862278099_cont_sun_m_1164_2_alg».proof.Proof.Gen.KernelIdeal.Skeleton
import proofs.«111349_g36472862278099_cont_sun_m_1164_2_alg».proof.Proof.GcnSpec
import proofs.«111349_g36472862278099_cont_sun_m_1164_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KHead

open Idealize.ShloMosaic Idealize.ShloMosaic.ValueIdx Cert.KernelIdeal Cert.KernelIdeal.Gen

/-- The head's weights pass through a cast to their own shape unchanged. -/
theorem pay6_eq (x8 : Vec Ideal S10x60 .f32) : k0_pay6 (F := Ideal) x8 = x8 :=
  shapeCast_self x8 _

/-! ### The kernel's stages as functions of the array before them -/

/-- The per-node maximum over the ten classes, spread back over the classes. -/
private def maxRow (v45 : FVec Ideal S10x2048 .f32) : FVec Ideal S10x2048 .f32 :=
  broadcastTo S10x2048 (shapeCast S1x2048
    (multiReduction .maximumf [0] S2048 v45 0xFF800000#32 reduces_S10x2048_S2048 (.inl rfl) rfl)
    shapeCasts_S2048_S1x2048) broadcasts_S1x2048_S10x2048

/-- The per-node logarithm of the sum of exponentials, spread back over the classes. -/
private def lseRow (v49 : FVec Ideal S10x2048 .f32) : FVec Ideal S10x2048 .f32 :=
  broadcastTo S10x2048 (log (shapeCast S1x2048
    (multiReduction .add [0] S2048 (exp v49) 0x00000000#32 reduces_S10x2048_S2048 (.inl rfl) rfl)
    shapeCasts_S2048_S1x2048)) broadcasts_S1x2048_S10x2048

/-- The log-softmax stage on a [10, 2048] array of logits. -/
private def lsmK (v45 : FVec Ideal S10x2048 .f32) : FVec Ideal S10x2048 .f32 :=
  subf (subf v45 (maxRow v45)) (lseRow (subf v45 (maxRow v45)))

/-- One 20-column block of the head's weights times one layer's features. -/
private def blockK (off : ℕ) (h : S10x60.Slices ![0, off] S10x20) (v33 : FVec Ideal S10x60 .f32)
    (v : FVec Ideal S20x2048 .f32) : FVec Ideal S10x2048 .f32 :=
  matmul dot_S10x20_S20x2048_S10x2048_1_0_0_1_n_n (some .fp32)
    (extractStridedSlice S10x20 ![0, off] v33 h) v (constant S10x2048 .f32 0x00000000#32)

/-- The logits: the three blocks' products summed in order, plus the bias column. -/
private def logitsK (v13 v23 v31 : FVec Ideal S20x2048 .f32) (v33 : FVec Ideal S10x60 .f32) (v42 : Vec Ideal S10x1 .f32) :
    FVec Ideal S10x2048 .f32 :=
  addf
    (addf
      (addf (blockK 0 slices_S10x60_o0_0_S10x20 v33 v13) (blockK 20 slices_S10x60_o0_20_S10x20 v33 v23))
      (blockK 40 slices_S10x60_o0_40_S10x20 v33 v31))
    (broadcastTo S10x2048 (shapeCast S10x1 v42 shapeCasts_S10x1_S10x1) broadcasts_S10x1_S10x2048)

private theorem pay1_eq (v13 v23 v31 : FVec Ideal S20x2048 .f32) (v33 : FVec Ideal S10x60 .f32) (v42 : Vec Ideal S10x1 .f32) :
    k0_pay1 (F := Ideal) v13 v23 v31 v33 v42 = lsmK (logitsK v13 v23 v31 v33 v42) := rfl

/-! ### The log-softmax stage at an entry -/

/-- Reducing axis 0 of a [10, 2048] array at node n visits the entries (k, n). -/
private theorem lift_ix1 (h : S10x2048.Reduces [0] S2048) (n : Fin 2048) (k : Fin 10) :
    h.lift (ix1 n) k = ix2 k n := by
  funext ax; apply Fin.ext
  match ax with
  | ⟨0, _⟩ => rfl
  | ⟨1, _⟩ => rfl

private theorem negInf_f32 : FloatOps.ofBits (F := Ideal) .f32 0xFF800000#32 = (⊥ : EReal) := by
  show Ideal.ofBits .f32 0xFF800000#32 = ⊥
  simp [Ideal.ofBits, Ideal.ieee]

/-- The maximum over the ten classes at node n. -/
private theorem maxRow_apply (v45 : FVec Ideal S10x2048 .f32) (j : Fin 10) (n : Fin 2048) :
    maxRow v45 (ix2 j n) = Finset.univ.fold max (⊥ : EReal) (fun j' : Fin 10 => v45 (ix2 j' n)) := by
  unfold maxRow
  rw [broadcastTo_1b_ab_apply, shapeCast_a_1a_apply]
  refine (Ideal.multiReduction_maximumf_single (a := 0) v45 0xFF800000#32 reduces_S10x2048_S2048 (.inl rfl) rfl (ix1 n)).trans ?_
  have hf : (v45 ∘ (reduces_S10x2048_S2048 : S10x2048.Reduces [0] S2048).lift (ix1 n)) = (fun j' : Fin 10 => v45 (ix2 j' n)) := by
    funext k
    exact congrArg v45 (lift_ix1 _ n k)
  rw [negInf_f32, hf]
  rfl

/-- The logarithm of the sum of exponentials over the ten classes at node n. -/
private theorem lseRow_apply (v49 : FVec Ideal S10x2048 .f32) (j : Fin 10) (n : Fin 2048) :
    lseRow v49 (ix2 j n) = Ideal.log (∑ j' : Fin 10, Ideal.exp (v49 (ix2 j' n))) := by
  unfold lseRow
  rw [broadcastTo_1b_ab_apply]
  show Ideal.log (shapeCast S1x2048 _ _ (ix2 (0 : Fin 1) n)) = _
  rw [shapeCast_a_1a_apply]
  congr 1
  refine (Ideal.multiReduction_add_single (a := 0) (exp v49) 0x00000000#32 reduces_S10x2048_S2048 (.inl rfl) rfl (ix1 n)).trans ?_
  refine Finset.sum_congr rfl fun k _ => ?_
  exact congrArg (fun i => Ideal.exp (v49 i)) (lift_ix1 _ n k)

private theorem lsmK_apply (v45 : FVec Ideal S10x2048 .f32) (j : Fin 10) (n : Fin 2048) :
    lsmK v45 (ix2 j n) = Cert.Gcn.lsm (fun j' => v45 (ix2 j' n)) j := by
  show (v45 (ix2 j n) - maxRow v45 (ix2 j n)) - lseRow (subf v45 (maxRow v45)) (ix2 j n)
    = (v45 (ix2 j n) - Finset.univ.fold max (⊥ : EReal) (fun j' : Fin 10 => v45 (ix2 j' n)))
      - Ideal.log (∑ j' : Fin 10, Ideal.exp (v45 (ix2 j' n) - Finset.univ.fold max (⊥ : EReal) (fun j' : Fin 10 => v45 (ix2 j' n))))
  have hsum : (∑ j' : Fin 10, Ideal.exp (subf v45 (maxRow v45) (ix2 j' n)))
      = ∑ j' : Fin 10, Ideal.exp (v45 (ix2 j' n) - Finset.univ.fold max (⊥ : EReal) (fun j' : Fin 10 => v45 (ix2 j' n))) :=
    Finset.sum_congr rfl fun k _ => by rw [subf_apply, maxRow_apply]
  rw [maxRow_apply, lseRow_apply, hsum]

/-! ### The logits at an entry -/

/-- A 20-column block of the weights at (j, k) is the weights at (j, off + k). -/
private theorem slice_apply (off : ℕ) (h : S10x60.Slices ![0, off] S10x20) (v33 : FVec Ideal S10x60 .f32)
    (j : Fin 10) (k : Fin 20) (hk : off + k.val < 60) :
    extractStridedSlice S10x20 ![0, off] v33 h (ix2 j k) = v33 (ix2 j ⟨off + k.val, hk⟩) := by
  refine extractStridedSlice_apply _ v33 h (ix2 j k) (ix2 j ⟨off + k.val, hk⟩) fun a => ?_
  match a with
  | ⟨0, _⟩ => show j.val = 0 + j.val; omega
  | ⟨1, _⟩ => rfl

/-- A block's product at (j, n): the sum over its 20 columns of feature times weight. -/
private theorem blockK_apply (off : ℕ) (h : S10x60.Slices ![0, off] S10x20) (hoff : off + 20 ≤ 60)
    (v33 : FVec Ideal S10x60 .f32) (v : FVec Ideal S20x2048 .f32) (j : Fin 10) (n : Fin 2048) :
    blockK off h v33 v (ix2 j n) = ∑ k : Fin 20, v (ix2 k n) * v33 (ix2 j ⟨off + k.val, by omega⟩) := by
  unfold blockK
  rw [PlainMatmul.matmul_zero_apply dot_S10x20_S20x2048_S10x2048_1_0_0_1_n_n (dot_S10x20_S20x2048_S10x2048_1_0_0_1_n_n).wf rfl]
  refine Finset.sum_congr rfl fun k _ => ?_
  rw [slice_apply off h v33 j k (by omega), mul_comm]

/-- The bias column spread over the nodes. -/
private theorem bias_apply (v42 : Vec Ideal S10x1 .f32) (j : Fin 10) (n : Fin 2048) :
    broadcastTo S10x2048 (shapeCast S10x1 v42 shapeCasts_S10x1_S10x1) broadcasts_S10x1_S10x2048 (ix2 j n)
      = v42 (ix2 j 0) := by
  rw [shapeCast_self]
  refine broadcastTo_apply v42 _ (ix2 j n) (ix2 j 0) fun a => ?_
  match a with
  | ⟨0, _⟩ => rfl
  | ⟨1, _⟩ => rfl

private theorem logitsK_apply (v13 v23 v31 : FVec Ideal S20x2048 .f32) (v33 : FVec Ideal S10x60 .f32) (v42 : Vec Ideal S10x1 .f32)
    (j : Fin 10) (n : Fin 2048) :
    logitsK v13 v23 v31 v33 v42 (ix2 j n)
      = Cert.Gcn.logit (fun n k => v13 (ix2 k n)) (fun n k => v23 (ix2 k n)) (fun n k => v31 (ix2 k n))
          (fun k j => v33 (ix2 j k)) (fun j => v42 (ix2 j 0)) n j := by
  have hs := Cert.Gcn.sum_feats (fun n k => v13 (ix2 k n)) (fun n k => v23 (ix2 k n)) (fun n k => v31 (ix2 k n))
    (fun k j => v33 (ix2 j k)) n j
  unfold logitsK Cert.Gcn.logit
  rw [hs, addf_apply, addf_apply, addf_apply, bias_apply,
    blockK_apply 0 _ (by omega), blockK_apply 20 _ (by omega), blockK_apply 40 _ (by omega)]
  simp only [Nat.zero_add]

theorem pay1_apply (v13 v23 v31 : FVec Ideal S20x2048 .f32) (v33 : FVec Ideal S10x60 .f32) (v42 : Vec Ideal S10x1 .f32)
    (j : Fin 10) (n : Fin 2048) :
    k0_pay1 (F := Ideal) v13 v23 v31 v33 v42 (ix2 j n)
      = Cert.Gcn.lsm (Cert.Gcn.logit (fun n k => v13 (ix2 k n)) (fun n k => v23 (ix2 k n)) (fun n k => v31 (ix2 k n))
          (fun k j => v33 (ix2 j k)) (fun j => v42 (ix2 j 0)) n) j := by
  rw [pay1_eq, lsmK_apply]
  congr 1
  funext j'
  exact logitsK_apply v13 v23 v31 v33 v42 j' n

end Cert.KernelIdeal.KHead

end
-- ==== Proof.KPayload.lean ====
/-
  The kernel body's one store, entry by entry, is the network of GcnSpec in the transposed layout the kernel keeps:
  features down the rows, nodes along the columns.
-/
import proofs.«111349_g36472862278099_cont_sun_m_1164_2_alg».proof.Proof.Gen.KernelIdeal.Skeleton
import proofs.«111349_g36472862278099_cont_sun_m_1164_2_alg».proof.Proof.GcnSpec
import proofs.«111349_g36472862278099_cont_sun_m_1164_2_alg».proof.Proof.KLayers
import proofs.«111349_g36472862278099_cont_sun_m_1164_2_alg».proof.Proof.KHead
import Idealize.ShloMosaic.Lib.ValueIdx
import Idealize.ShloMosaic.Lib.Pipeline.Value
import Idealize.ShloMosaic.PureOps.Ideal.Laws

open scoped BigOperators

noncomputable section

namespace Cert.KernelIdeal.KPayload

open Idealize.ShloMosaic Idealize.ShloMosaic.ValueIdx Cert.KernelIdeal Cert.KernelIdeal.Gen

theorem pay_apply (x0 : Vec Ideal S2048x2048 .i32) (x1 : Vec Ideal S128x2048 .f32) (x2 : Vec Ideal S20x128 .f32)
    (x3 x4 : Vec Ideal S20x20 .f32) (x5 x6 x7 : Vec Ideal S20x1 .f32) (x8 : Vec Ideal S10x60 .f32)
    (x9 : Vec Ideal S10x1 .f32) (j : Fin 10) (n : Fin 2048) :
    k0_pay1 (F := Ideal) (k0_pay3 x0 x2 x1 x5) (k0_pay4 x0 x2 x1 x5 x3 x6) (k0_pay5 x0 x2 x1 x5 x3 x6 x4 x7) (k0_pay6 x8) x9
        (ix2 j n)
      = Cert.Gcn.val (fun r k => x1 (ix2 k r)) (fun r c => (((x0 (ix2 r c)).toInt : ℝ) : EReal)) (fun k f => x2 (ix2 f k))
          (fun k f => x3 (ix2 f k)) (fun k f => x4 (ix2 f k)) (fun f => x5 (ix2 f 0)) (fun f => x6 (ix2 f 0))
          (fun f => x7 (ix2 f 0)) (fun k j => x8 (ix2 j k)) (fun j => x9 (ix2 j 0)) n j := by
  have h1 : (fun (n : Fin 2048) (k : Fin 20) => k0_pay3 (F := Ideal) x0 x2 x1 x5 (ix2 k n))
      = Cert.Gcn.x1 (fun r k => x1 (ix2 k r)) (fun r c => (((x0 (ix2 r c)).toInt : ℝ) : EReal)) (fun k f => x2 (ix2 f k))
          (fun f => x5 (ix2 f 0)) := by
    funext n k
    exact KLayers.pay3_apply x0 x2 x1 x5 k n
  have h2 : (fun (n : Fin 2048) (k : Fin 20) => k0_pay4 (F := Ideal) x0 x2 x1 x5 x3 x6 (ix2 k n))
      = Cert.Gcn.x2 (fun r k => x1 (ix2 k r)) (fun r c => (((x0 (ix2 r c)).toInt : ℝ) : EReal)) (fun k f => x2 (ix2 f k))
          (fun k f => x3 (ix2 f k)) (fun f => x5 (ix2 f 0)) (fun f => x6 (ix2 f 0)) := by
    funext n k
    exact KLayers.pay4_apply x0 x2 x1 x5 x3 x6 k n
  have h3 : (fun (n : Fin 2048) (k : Fin 20) => k0_pay5 (F := Ideal) x0 x2 x1 x5 x3 x6 x4 x7 (ix2 k n))
      = Cert.Gcn.x3 (fun r k => x1 (ix2 k r)) (fun r c => (((x0 (ix2 r c)).toInt : ℝ) : EReal)) (fun k f => x2 (ix2 f k))
          (fun k f => x3 (ix2 f k)) (fun k f => x4 (ix2 f k)) (fun f => x5 (ix2 f 0)) (fun f => x6 (ix2 f 0))
          (fun f => x7 (ix2 f 0)) := by
    funext n k
    exact KLayers.pay5_apply x0 x2 x1 x5 x3 x6 x4 x7 k n
  rw [KHead.pay6_eq, KHead.pay1_apply, h1, h2, h3]
  rfl

end Cert.KernelIdeal.KPayload

end
-- ==== Proof.KValue.lean ====
/-
  The kernel program run: every weakly fair execution ends with the result buffer at the network of GcnSpec of the
  arguments, and the arguments as they were. Before the region the features, the weights and the head are transposed
  and the biases made columns; the region's one grid point reads every array whole and stores the network in the
  transposed layout (classes down the rows, nodes along the columns); after the region the result is transposed back.
-/
import proofs.«111349_g36472862278099_cont_sun_m_1164_2_alg».proof.Proof.Gen.KernelIdeal.Frame
import proofs.«111349_g36472862278099_cont_sun_m_1164_2_alg».proof.Proof.KPayload
import proofs.«111349_g36472862278099_cont_sun_m_1164_2_alg».proof.Proof.GcnSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KValue

open Idealize.ShloMosaic Idealize.ShloMosaic.TcCoe Idealize.SL.Sem Idealize.ShloMosaic.ValueIdx
open Cert.KernelIdeal Cert.KernelIdeal.Gen

section Value

variable (m : (ℓ : Loc nD τ sig) → Buf (Elt Ideal) ℓ)

/-- The zero offsets of a rectangle that is its whole array. -/
theorem hz : (![0, 0] : Fin 2 → Nat) = fun _ => 0 := funext fun a => by fin_cases a <;> rfl

/-! ## The arrays as the region finds them: the arguments transposed, the biases as columns -/

theorem V_v0 (c : Dev nD) : (V m c main_v0 : S128x2048.Idx → EReal)
    = transpose S128x2048 [1, 0] (m ((c : Thread nD τ).loc main_arg0)) transposes_S2048x128_S128x2048_1_0 := by
  show StableHlo.after hostOps0 (fun b => m (c, b)) (Proc.devRef .tc main_v0) = _
  after_results

theorem V_v1 (c : Dev nD) : (V m c main_v1 : S20x128.Idx → EReal)
    = transpose S20x128 [1, 0] (m ((c : Thread nD τ).loc main_arg2)) transposes_S128x20_S20x128_1_0 := by
  show StableHlo.after hostOps0 (fun b => m (c, b)) (Proc.devRef .tc main_v1) = _
  after_results

theorem V_v2 (c : Dev nD) : (V m c main_v2 : S20x20.Idx → EReal)
    = transpose S20x20 [1, 0] (m ((c : Thread nD τ).loc main_arg3)) transposes_S20x20_S20x20_1_0 := by
  show StableHlo.after hostOps0 (fun b => m (c, b)) (Proc.devRef .tc main_v2) = _
  after_results

theorem V_v3 (c : Dev nD) : (V m c main_v3 : S20x20.Idx → EReal)
    = transpose S20x20 [1, 0] (m ((c : Thread nD τ).loc main_arg4)) transposes_S20x20_S20x20_1_0 := by
  show StableHlo.after hostOps0 (fun b => m (c, b)) (Proc.devRef .tc main_v3) = _
  after_results

theorem V_v4 (c : Dev nD) : (V m c main_v4 : S20x1.Idx → EReal)
    = broadcastInDim S20x1 ![0] bcast_S20_S20x1_0 (m ((c : Thread nD τ).loc main_arg5)) := by
  show StableHlo.after hostOps0 (fun b => m (c, b)) (Proc.devRef .tc main_v4) = _
  after_results

theorem V_v5 (c : Dev nD) : (V m c main_v5 : S20x1.Idx → EReal)
    = broadcastInDim S20x1 ![0] bcast_S20_S20x1_0 (m ((c : Thread nD τ).loc main_arg6)) := by
  show StableHlo.after hostOps0 (fun b => m (c, b)) (Proc.devRef .tc main_v5) = _
  after_results

theorem V_v6 (c : Dev nD) : (V m c main_v6 : S20x1.Idx → EReal)
    = broadcastInDim S20x1 ![0] bcast_S20_S20x1_0 (m ((c : Thread nD τ).loc main_arg7)) := by
  show StableHlo.after hostOps0 (fun b => m (c, b)) (Proc.devRef .tc main_v6) = _
  after_results

theorem V_v7 (c : Dev nD) : (V m c main_v7 : S10x60.Idx → EReal)
    = transpose S10x60 [1, 0] (m ((c : Thread nD τ).loc main_arg8)) transposes_S60x10_S10x60_1_0 := by
  show StableHlo.after hostOps0 (fun b => m (c, b)) (Proc.devRef .tc main_v7) = _
  after_results

theorem V_v8 (c : Dev nD) : (V m c main_v8 : S10x1.Idx → EReal)
    = broadcastInDim S10x1 ![0] bcast_S10_S10x1_0 (m ((c : Thread nD τ).loc main_arg9)) := by
  show StableHlo.after hostOps0 (fun b => m (c, b)) (Proc.devRef .tc main_v8) = _
  after_results

/-- A vector of twenty made a column reads, at row f, the vector's entry f. -/
theorem column20_apply (x : S20.Idx → EReal) (f : Fin 20) :
    broadcastInDim S20x1 ![0] bcast_S20_S20x1_0 x (ix2 f 0) = x (ix1 f) :=
  broadcastInDim_apply _ _ x _ _ fun a => match a with | ⟨0, _⟩ => rfl

/-- A vector of ten made a column reads, at row j, the vector's entry j. -/
theorem column10_apply (x : S10.Idx → EReal) (j : Fin 10) :
    broadcastInDim S10x1 ![0] bcast_S10_S10x1_0 x (ix2 j 0) = x (ix1 j) :=
  broadcastInDim_apply _ _ x _ _ fun a => match a with | ⟨0, _⟩ => rfl

/-! ## Each window's one block is its whole array -/

theorem blk0 (c : Dev nD) (t : Fin cfg0.N) : iblk m c 0 t = V m c main_arg1 := by
  have hz' : (fun a => win0_0.index t a * main_arg1.ty.shape.size a) = fun _ => 0 := funext fun a => Nat.zero_mul _
  exact Memref.read_access_unit_zero (Elt Ideal) main_arg1 hz' (fun a => by rw [congrFun hz' a]; simp) (V m c main_arg1)

theorem blk1 (c : Dev nD) (t : Fin cfg0.N) : iblk m c 1 t = V m c main_v0 := by
  have hz' : (fun a => win0_1.index t a * main_v0.ty.shape.size a) = fun _ => 0 := funext fun a => Nat.zero_mul _
  exact Memref.read_access_unit_zero (Elt Ideal) main_v0 hz' (fun a => by rw [congrFun hz' a]; simp) (V m c main_v0)

theorem blk2 (c : Dev nD) (t : Fin cfg0.N) : iblk m c 2 t = V m c main_v1 := by
  have hz' : (fun a => win0_2.index t a * main_v1.ty.shape.size a) = fun _ => 0 := funext fun a => Nat.zero_mul _
  exact Memref.read_access_unit_zero (Elt Ideal) main_v1 hz' (fun a => by rw [congrFun hz' a]; simp) (V m c main_v1)

theorem blk3 (c : Dev nD) (t : Fin cfg0.N) : iblk m c 3 t = V m c main_v2 := by
  have hz' : (fun a => win0_3.index t a * main_v2.ty.shape.size a) = fun _ => 0 := funext fun a => Nat.zero_mul _
  exact Memref.read_access_unit_zero (Elt Ideal) main_v2 hz' (fun a => by rw [congrFun hz' a]; simp) (V m c main_v2)

theorem blk4 (c : Dev nD) (t : Fin cfg0.N) : iblk m c 4 t = V m c main_v3 := by
  have hz' : (fun a => win0_4.index t a * main_v3.ty.shape.size a) = fun _ => 0 := funext fun a => Nat.zero_mul _
  exact Memref.read_access_unit_zero (Elt Ideal) main_v3 hz' (fun a => by rw [congrFun hz' a]; simp) (V m c main_v3)

theorem blk5 (c : Dev nD) (t : Fin cfg0.N) : iblk m c 5 t = V m c main_v4 := by
  have hz' : (fun a => win0_5.index t a * main_v4.ty.shape.size a) = fun _ => 0 := funext fun a => Nat.zero_mul _
  exact Memref.read_access_unit_zero (Elt Ideal) main_v4 hz' (fun a => by rw [congrFun hz' a]; simp) (V m c main_v4)

theorem blk6 (c : Dev nD) (t : Fin cfg0.N) : iblk m c 6 t = V m c main_v5 := by
  have hz' : (fun a => win0_6.index t a * main_v5.ty.shape.size a) = fun _ => 0 := funext fun a => Nat.zero_mul _
  exact Memref.read_access_unit_zero (Elt Ideal) main_v5 hz' (fun a => by rw [congrFun hz' a]; simp) (V m c main_v5)

theorem blk7 (c : Dev nD) (t : Fin cfg0.N) : iblk m c 7 t = V m c main_v6 := by
  have hz' : (fun a => win0_7.index t a * main_v6.ty.shape.size a) = fun _ => 0 := funext fun a => Nat.zero_mul _
  exact Memref.read_access_unit_zero (Elt Ideal) main_v6 hz' (fun a => by rw [congrFun hz' a]; simp) (V m c main_v6)

theorem blk8 (c : Dev nD) (t : Fin cfg0.N) : iblk m c 8 t = V m c main_v7 := by
  have hz' : (fun a => win0_8.index t a * main_v7.ty.shape.size a) = fun _ => 0 := funext fun a => Nat.zero_mul _
  exact Memref.read_access_unit_zero (Elt Ideal) main_v7 hz' (fun a => by rw [congrFun hz' a]; simp) (V m c main_v7)

theorem blk9 (c : Dev nD) (t : Fin cfg0.N) : iblk m c 9 t = V m c main_v8 := by
  have hz' : (fun a => win0_9.index t a * main_v8.ty.shape.size a) = fun _ => 0 := funext fun a => Nat.zero_mul _
  exact Memref.read_access_unit_zero (Elt Ideal) main_v8 hz' (fun a => by rw [congrFun hz' a]; simp) (V m c main_v8)

/-! ## What the body leaves in the result's buffer -/

/-- The one store covers the buffer, so the buffer holds the payload: the network in the transposed layout. -/
theorem out_apply (x0 : Vec Ideal S2048x2048 .i32) (x1 : Vec Ideal S128x2048 .f32) (x2 : Vec Ideal S20x128 .f32)
    (x3 x4 : Vec Ideal S20x20 .f32) (x5 x6 x7 : Vec Ideal S20x1 .f32) (x8 : Vec Ideal S10x60 .f32)
    (x9 : Vec Ideal S10x1 .f32) (j : Fin 10) (n : Fin 2048) :
    out0_10 (F := Ideal) x0 x1 x2 x3 x4 x5 x6 x7 x8 x9 (ix2 j n)
      = Cert.Gcn.val (fun r k => x1 (ix2 k r)) (fun r c' => (((x0 (ix2 r c')).toInt : ℝ) : EReal)) (fun k f => x2 (ix2 f k))
          (fun k f => x3 (ix2 f k)) (fun k f => x4 (ix2 f k)) (fun f => x5 (ix2 f 0)) (fun f => x6 (ix2 f 0))
          (fun f => x7 (ix2 f 0)) (fun k j => x8 (ix2 j k)) (fun j => x9 (ix2 j 0)) n j := by
  unfold out0_10
  rw [View.canon_unit_zero hz]
  simp only [View.ld_unit_zero (S := S2048x2048) hz, View.ld_unit_zero (S := S20x128) hz, View.ld_unit_zero (S := S128x2048) hz, View.ld_unit_zero (S := S20x1) hz, View.ld_unit_zero (S := S20x20) hz, View.ld_unit_zero (S := S10x60) hz, View.ld_unit_zero (S := S10x1) hz]
  exact Cert.KernelIdeal.KPayload.pay_apply x0 x1 x2 x3 x4 x5 x6 x7 x8 x9 j n

/-- The result array of the region: entry (j, n) is node n's log-probability of class j. -/
def G (c : Dev nD) : S10x2048.Idx → EReal :=
  fun i => Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (i 1) (i 0))

/-- The network of the region-entry arrays is the network of the arguments. -/
theorem val_V (c : Dev nD) (j : Fin 10) (n : Fin 2048) :
    Cert.Gcn.val (fun r k => (V m c main_v0) (ix2 k r)) (fun r c' => ((((V m c main_arg1) (ix2 r c')).toInt : ℝ) : EReal)) (fun k f => (V m c main_v1) (ix2 f k))
          (fun k f => (V m c main_v2) (ix2 f k)) (fun k f => (V m c main_v3) (ix2 f k)) (fun f => (V m c main_v4) (ix2 f 0)) (fun f => (V m c main_v5) (ix2 f 0))
          (fun f => (V m c main_v6) (ix2 f 0)) (fun k j => (V m c main_v7) (ix2 j k)) (fun j => (V m c main_v8) (ix2 j 0)) n j
      = G m c (ix2 j n) := by
  show _ = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 n j)
  rw [Cert.Gcn.out_apply, V_main_arg1, V_v0, V_v1, V_v2, V_v3, V_v4, V_v5, V_v6, V_v7, V_v8]
  have e0 : ∀ (r : Fin 2048) (k : Fin 128), transpose S128x2048 [1, 0] (m ((c : Thread nD τ).loc main_arg0)) transposes_S2048x128_S128x2048_1_0 (ix2 k r)
      = (m ((c : Thread nD τ).loc main_arg0)) (ix2 r k) := fun r k => transpose_ix2_apply _ _ k r
  have e2 : ∀ (k : Fin 128) (f : Fin 20), transpose S20x128 [1, 0] (m ((c : Thread nD τ).loc main_arg2)) transposes_S128x20_S20x128_1_0 (ix2 f k)
      = (m ((c : Thread nD τ).loc main_arg2)) (ix2 k f) := fun k f => transpose_ix2_apply _ _ f k
  have e3 : ∀ (k f : Fin 20), transpose S20x20 [1, 0] (m ((c : Thread nD τ).loc main_arg3)) transposes_S20x20_S20x20_1_0 (ix2 f k)
      = (m ((c : Thread nD τ).loc main_arg3)) (ix2 k f) := fun k f => transpose_ix2_apply _ _ f k
  have e4 : ∀ (k f : Fin 20), transpose S20x20 [1, 0] (m ((c : Thread nD τ).loc main_arg4)) transposes_S20x20_S20x20_1_0 (ix2 f k)
      = (m ((c : Thread nD τ).loc main_arg4)) (ix2 k f) := fun k f => transpose_ix2_apply _ _ f k
  have e5 : ∀ f : Fin 20, broadcastInDim S20x1 ![0] bcast_S20_S20x1_0 (m ((c : Thread nD τ).loc main_arg5)) (ix2 f 0) = (m ((c : Thread nD τ).loc main_arg5)) (ix1 f) :=
    fun f => column20_apply _ f
  have e6 : ∀ f : Fin 20, broadcastInDim S20x1 ![0] bcast_S20_S20x1_0 (m ((c : Thread nD τ).loc main_arg6)) (ix2 f 0) = (m ((c : Thread nD τ).loc main_arg6)) (ix1 f) :=
    fun f => column20_apply _ f
  have e7 : ∀ f : Fin 20, broadcastInDim S20x1 ![0] bcast_S20_S20x1_0 (m ((c : Thread nD τ).loc main_arg7)) (ix2 f 0) = (m ((c : Thread nD τ).loc main_arg7)) (ix1 f) :=
    fun f => column20_apply _ f
  have e8 : ∀ (k : Fin 60) (j : Fin 10), transpose S10x60 [1, 0] (m ((c : Thread nD τ).loc main_arg8)) transposes_S60x10_S10x60_1_0 (ix2 j k)
      = (m ((c : Thread nD τ).loc main_arg8)) (ix2 k j) := fun k j => transpose_ix2_apply _ _ j k
  have e9 : ∀ j : Fin 10, broadcastInDim S10x1 ![0] bcast_S10_S10x1_0 (m ((c : Thread nD τ).loc main_arg9)) (ix2 j 0) = (m ((c : Thread nD τ).loc main_arg9)) (ix1 j) :=
    fun j => column10_apply _ j
  simp only [e0, e2, e3, e4, e5, e6, e7, e8, e9]

/-- What the one point writes back is the whole of G. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10, blk0, blk1, blk2, blk3, blk4, blk5, blk6, blk7, blk8, blk9]
  have hz' : (fun a => win0_10.index t a * main_v9.ty.shape.size a) = fun _ => 0 := funext fun a => Nat.zero_mul _
  refine Eq.trans ?_ (Memref.read_access_unit_zero (Elt Ideal) main_v9 hz' (fun a => by rw [congrFun hz' a]; simp) (G m c)).symm
  show out0_10 (F := Ideal) (V m c main_arg1) (V m c main_v0) (V m c main_v1) (V m c main_v2) (V m c main_v3) (V m c main_v4) (V m c main_v5) (V m c main_v6) (V m c main_v7) (V m c main_v8) = G m c
  funext i
  rw [eq_ix2 i]
  exact (out_apply (V m c main_arg1) (V m c main_v0) (V m c main_v1) (V m c main_v2) (V m c main_v3) (V m c main_v4) (V m c main_v5) (V m c main_v6) (V m c main_v7) (V m c main_v8) (i 0) (i 1)).trans (val_V m c (i 0) (i 1))

/-- The one block is the whole array, so the array ends holding G. -/
theorem final (c : Dev nD) : (dats m 0 c).arrAt 10 cfg0.N = G m c :=
  (dats m 0 c).arrAt_eq_of_cover 10 (G m c) (fun t _ => flushed_eq m c t) fun i =>
    ⟨t0_0, flush0_10 t0_0, by
      show i ∈ ((View.whole main_v9).slice (win0_10.rect t0_0)).set
      rw [View.set_slice_whole, Rect.mem_set_unit]
      intro a
      have h0 : (i 0 : Nat) < 10 := (i 0).isLt
      have h1 : (i 1 : Nat) < 2048 := (i 1).isLt
      match a with
      | ⟨0, _⟩ => show 0 * 10 ≤ (i 0 : Nat) ∧ (i 0 : Nat) < 0 * 10 + 10; omega
      | ⟨1, _⟩ => show 0 * 2048 ≤ (i 1 : Nat) ∧ (i 1 : Nat) < 0 * 2048 + 2048; omega⟩

/-- After the region the result is transposed back: entry (n, j) is the network at node n and class j. -/
theorem tail (c : Dev nD) :
    Pipeline.afterTail₀ cfgs (dats m) 0 (V0 m) [hostOps1] c main_v10
      = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v10) = _
  after_results
  rw [(Pipeline.withArrays_arr spec0 launch0.win.arr_inj c _ _ 10).trans (final m c)]
  funext i
  rw [eq_ix2 i]
  exact transpose_ix2_apply (G m c) transposes_S10x2048_S2048x10_1_0 (i 0) (i 1)

end Value

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(((h c).2 main_v10 (Pipeline.mem_restRefs_of main_v10 (by decide) (by decide))).trans (tail m c)),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.KValue

end
-- ==== Proof.RefTerm.lean ====
/-
  The reference program's values, stage by stage, as functions of its arguments. The flat edge list has 2048 · 2048
  entries; entry e goes from node e / 2048 (its row word) to node e % 2048 (its column word) with the adjacency's entry
  there as weight. A convolution gathers the transformed features of each edge's source, scales them by the weight and
  scatter-adds them at the edge's target.
-/
import proofs.«111349_g36472862278099_cont_sun_m_1164_2_alg».proof.Proof.Gen.ReferenceIdeal

noncomputable section

namespace Cert.ReferenceIdeal.RefTerm

open Idealize.ShloMosaic Cert.ReferenceIdeal Cert.ReferenceIdeal.Gen

variable {F : FTy → Type} [FloatOps F]

/-- The contents of a buffer of a given shape and element type. -/
abbrev Cn (F : FTy → Type) [FloatOps F] (s : Shape) (e : EltTy) : Type := (⟨s, e⟩ : BufTy).Contents (Elt F)

/-- The positions 0, 1, … of the flat edge list. -/
def pos (F : FTy → Type) [FloatOps F] : Cn F S4194304 .i32 := iotaInDim S4194304 32 0

/-- The divisor 2048 as the quotient's callee receives it. -/
def two048 (F : FTy → Type) [FloatOps F] : Cn F S_ .i32 := id (constantI S_ 32 2048#32 : Cn F S_ .i32)

/-- The truncated quotient of the positions by 2048. -/
def quotT (F : FTy → Type) [FloatOps F] : Cn F S4194304 .i32 :=
  Host.divsi (pos F) (broadcastInDim S4194304 ![] bcast_S_S4194304 (two048 F))

/-- Each edge's source node, the floor of position / 2048: the truncated quotient, less one where the signs differ and
    the remainder is not zero. -/
def rowW (F : FTy → Type) [FloatOps F] : Cn F S4194304 .i32 :=
  select
    (andi
      (cmpi .ne (signi (pos F)) (broadcastInDim S4194304 ![] bcast_S_S4194304 (signi (two048 F))))
      (cmpi .ne (Host.remsi (pos F) (broadcastInDim S4194304 ![] bcast_S_S4194304 (two048 F)))
        (broadcastInDim S4194304 ![] bcast_S_S4194304 (constantI S_ 32 0#32 : Cn F S_ .i32))))
    (subi (quotT F) (broadcastInDim S4194304 ![] bcast_S_S4194304 (constantI S_ 32 1#32 : Cn F S_ .i32)))
    (quotT F)

/-- The modulus the remainder's callee uses: 2048, or 1 had it been zero. -/
def modW (F : FTy → Type) [FloatOps F] : Cn F S_ .i32 :=
  select (cmpi .eq (two048 F) (constantI S_ 32 0#32 : Cn F S_ .i32)) (constantI S_ 32 1#32 : Cn F S_ .i32) (two048 F)

/-- The truncated remainder of the positions. -/
def remT (F : FTy → Type) [FloatOps F] : Cn F S4194304 .i32 :=
  Host.remsi (pos F) (broadcastInDim S4194304 ![] bcast_S_S4194304 (modW F))

/-- Each edge's target node, position mod 2048: the truncated remainder, plus the modulus where it is not zero and its
    sign differs from the modulus's. -/
def colW (F : FTy → Type) [FloatOps F] : Cn F S4194304 .i32 :=
  select
    (andi
      (cmpi .ne
        (cmpi .slt (remT F) (broadcastInDim S4194304 ![] bcast_S_S4194304 (constantI S_ 32 0#32 : Cn F S_ .i32)))
        (broadcastInDim S4194304 ![] bcast_S_S4194304 (cmpi .slt (modW F) (constantI S_ 32 0#32 : Cn F S_ .i32))))
      (cmpi .ne (remT F) (broadcastInDim S4194304 ![] bcast_S_S4194304 (constantI S_ 32 0#32 : Cn F S_ .i32))))
    (addi (remT F) (broadcastInDim S4194304 ![] bcast_S_S4194304 (modW F)))
    (remT F)

/-- The edge weights: the adjacency flattened row by row and converted to floats. -/
def edgeW (adj : Cn F S2048x2048 .i32) : Cn F S4194304 .f32 :=
  sitofp .f32 (fun i => shapeCast S4194304 adj shapeCasts_S2048x2048_S4194304 i)

/-- The source rows as the gather takes them: a negative row number wrapped by 2048, as a column of start indices. -/
def srcIdx (row : Cn F S4194304 .i32) : Cn F S4194304x1 .i32 :=
  broadcastInDim S4194304x1 ![0] bcast_S4194304_S4194304x1_0
    (select
      (cmpi .slt row (broadcastInDim S4194304 ![] bcast_S_S4194304 (constantI S_ 32 0#32 : Cn F S_ .i32)))
      (addi row (broadcastInDim S4194304 ![] bcast_S_S4194304 (constantI S_ 32 2048#32 : Cn F S_ .i32)))
      row)

/-- The messages: each edge's source features times the edge's weight. -/
def msgs (row : Cn F S4194304 .i32) (ew : Cn F S4194304 .f32) (h : Cn F S2048x20 .f32) : Cn F S4194304x20 .f32 :=
  mulf (Host.gather gather_S2048x20_S4194304x1_S4194304x20_1_0_n_n_0_1_120 h (srcIdx (F := F) row))
    (broadcastInDim S4194304x20 ![0, 1] bcast_S4194304x1_S4194304x20_0_1
      (broadcastInDim S4194304x1 ![0] bcast_S4194304_S4194304x1_0 ew))

/-- The aggregation: the messages summed at their edges' targets, from zero. -/
def aggr (row col : Cn F S4194304 .i32) (ew : Cn F S4194304 .f32) (h : Cn F S2048x20 .f32) : Cn F S2048x20 .f32 :=
  Host.scatterAdd scatter_S2048x20_S4194304x1_S4194304x20_1_0_0_1
    (broadcastInDim S2048x20 ![] bcast_S_S2048x20 (constant S_ .f32 0x00000000#32))
    (broadcastInDim S4194304x1 ![0] bcast_S4194304_S4194304x1_0 col)
    (msgs row ew h)

/-- A bias row added to every node. -/
def biased (v : Cn F S2048x20 .f32) (b : Cn F S20 .f32) : Cn F S2048x20 .f32 :=
  addf v (broadcastInDim S2048x20 ![0, 1] bcast_S1x20_S2048x20_0_1 (broadcastInDim S1x20 ![1] bcast_S20_S1x20_1 b))

/-- max(·, 0), entry by entry. -/
def relu (v : Cn F S2048x20 .f32) : Cn F S2048x20 .f32 :=
  maximumf v (broadcastInDim S2048x20 ![] bcast_S_S2048x20 (constant S_ .f32 0x00000000#32))

/-- The first layer. -/
def layer1 (row col : Cn F S4194304 .i32) (ew : Cn F S4194304 .f32) (x : Cn F S2048x128 .f32) (W : Cn F S128x20 .f32)
    (b : Cn F S20 .f32) : Cn F S2048x20 .f32 :=
  relu (biased (aggr row col ew (Host.dotGeneral dot_S2048x128_S128x20_S2048x20_1_0_0_1_n_n none x W)) b)

/-- A later layer before its nonlinearity, if any. -/
def layerLin (row col : Cn F S4194304 .i32) (ew : Cn F S4194304 .f32) (x : Cn F S2048x20 .f32) (W : Cn F S20x20 .f32)
    (b : Cn F S20 .f32) : Cn F S2048x20 .f32 :=
  biased (aggr row col ew (Host.dotGeneral dot_S2048x20_S20x20_S2048x20_1_0_0_1_n_n none x W)) b

/-- The head's logits. -/
def logits (u v w : Cn F S2048x20 .f32) (LW : Cn F S60x10 .f32) (lb : Cn F S10 .f32) : Cn F S2048x10 .f32 :=
  addf
    (Host.dotGeneral dot_S2048x60_S60x10_S2048x10_1_0_0_1_n_n none
      (concatenate S2048x60 1 [⟨S2048x20, u⟩, ⟨S2048x20, v⟩, ⟨S2048x20, w⟩] concatenates_S2048x20_S2048x20_S2048x20_S2048x60_d1)
      LW)
    (broadcastInDim S2048x10 ![0, 1] bcast_S1x10_S2048x10_0_1 (broadcastInDim S1x10 ![1] bcast_S10_S1x10_1 lb))

/-- The logits less each node's maximum. -/
def shifted (l : Cn F S2048x10 .f32) : Cn F S2048x10 .f32 :=
  subf l
    (broadcastInDim S2048x10 ![0, 1] bcast_S2048x1_S2048x10_0_1
      (broadcastInDim S2048x1 ![0] bcast_S2048_S2048x1_0
        (maximumf (broadcastInDim S2048 ![] bcast_S_S2048 (constant S_ .f32 0xFF800000#32))
          (Host.reduce FloatOps.maximumf l (constant S_ .f32 0xFF800000#32) reducesTo_S2048x10_S2048_d1 h_S_))))

/-- The log-softmax over each node's ten classes. -/
def logSoftmax (l : Cn F S2048x10 .f32) : Cn F S2048x10 .f32 :=
  subf (shifted l)
    (broadcastInDim S2048x10 ![0, 1] bcast_S2048x1_S2048x10_0_1
      (Host.log
        (broadcastInDim S2048x1 ![0] bcast_S2048_S2048x1_0
          (Host.reduceAdd (Host.exp (shifted l)) (constant S_ .f32 0x00000000#32) reducesTo_S2048x10_S2048_d1 h_S_))))

/-- The reference's result from its arguments, the row and column words and the edge weights given. -/
def outOf (row col : Cn F S4194304 .i32) (ew : Cn F S4194304 .f32) (x : Cn F S2048x128 .f32) (W1 : Cn F S128x20 .f32)
    (W2 W3 : Cn F S20x20 .f32) (b1 b2 b3 : Cn F S20 .f32) (LW : Cn F S60x10 .f32) (lb : Cn F S10 .f32) :
    Cn F S2048x10 .f32 :=
  logSoftmax
    (logits (layer1 row col ew x W1 b1)
      (relu (layerLin row col ew (layer1 row col ew x W1 b1) W2 b2))
      (layerLin row col ew (relu (layerLin row col ew (layer1 row col ew x W1 b1) W2 b2)) W3 b3)
      LW lb)

/-- The reference's result from its arguments. -/
def out (x : Cn F S2048x128 .f32) (adj : Cn F S2048x2048 .i32) (W1 : Cn F S128x20 .f32) (W2 W3 : Cn F S20x20 .f32)
    (b1 b2 b3 : Cn F S20 .f32) (LW : Cn F S60x10 .f32) (lb : Cn F S10 .f32) : Cn F S2048x10 .f32 :=
  outOf (rowW F) (colW F) (edgeW adj) x W1 W2 W3 b1 b2 b3 LW lb

end Cert.ReferenceIdeal.RefTerm

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  The reference program run: every weakly fair execution ends with the result buffer at the stage functions' value of
  the arguments, and the arguments as they were.

  The program is one straight line of 129 host operations once the outlined functions (the floored quotient and the
  remainder with their selects, the two rectifiers, the log-softmax) stand in line at their calls. The line is cut into
  five consecutive parts — the edge words, the three layers, the head —; each part's result is its stage function of
  what the part reads, a buffer a part does not write is carried across it, and the parts compose to the whole.
-/
import proofs.«111349_g36472862278099_cont_sun_m_1164_2_alg».proof.Proof.RefTerm
import proofs.«111349_g36472862278099_cont_sun_m_1164_2_alg».proof.Proof.LibAfter
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- The edge list's words: the positions, their floored quotient and their remainder by 2048 (the two outlined integer functions, their selects in line), and the adjacency flattened and converted. -/
abbrev cIdx : List (HloOp τ sig (Elt F)) :=
  [
    nullary main_v0 (iotaInDim S4194304 32 0),
    nullary main_c (constantI S_ 32 2048#32),
    TRef.unary (TRef.of main_c : TRef sig ⟨S_, .i32⟩) main_call0.v0 id,
    TRef.unary main_call0.v0 main_call0.v1 (broadcastInDim S4194304 ![] bcast_S_S4194304),
    TRef.binary (TRef.of main_v0 : TRef sig ⟨S4194304, .i32⟩) main_call0.v1 main_call0.v2 Host.divsi,
    TRef.unary (TRef.of main_v0 : TRef sig ⟨S4194304, .i32⟩) main_call0.v3 signi,
    TRef.unary main_call0.v0 main_call0.v4 signi,
    TRef.unary main_call0.v4 main_call0.v5 (broadcastInDim S4194304 ![] bcast_S_S4194304),
    TRef.binary main_call0.v3 main_call0.v5 main_call0.v6 (cmpi .ne),
    TRef.unary main_call0.v0 main_call0.v7 (broadcastInDim S4194304 ![] bcast_S_S4194304),
    TRef.binary (TRef.of main_v0 : TRef sig ⟨S4194304, .i32⟩) main_call0.v7 main_call0.v8 Host.remsi,
    TRef.nullary main_call0.c (constantI S_ 32 0#32),
    TRef.unary main_call0.c main_call0.v9 (broadcastInDim S4194304 ![] bcast_S_S4194304),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4194304 ![] bcast_S_S4194304),
    TRef.binary main_call0.v2 main_call0.v12 main_call0.v13 subi,
    TRef.ternary main_call0.v11 main_call0.v13 main_call0.v2 main_call0.call0.v0 select,
    nullary main_c_0 (constantI S_ 32 2048#32),
    TRef.unary (TRef.of main_c_0 : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S4194304 ![] bcast_S_S4194304),
    TRef.binary (TRef.of main_v0 : TRef sig ⟨S4194304, .i32⟩) main_call1.v3 main_call1.v4 Host.remsi,
    TRef.nullary main_call1.c_1 (constantI S_ 32 0#32),
    TRef.unary main_call1.c_1 main_call1.v5 (broadcastInDim S4194304 ![] bcast_S_S4194304),
    TRef.binary main_call1.v4 main_call1.v5 main_call1.v6 (cmpi .ne),
    TRef.nullary main_call1.c_2 (constantI S_ 32 0#32),
    TRef.unary main_call1.c_2 main_call1.v7 (broadcastInDim S4194304 ![] bcast_S_S4194304),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S4194304 ![] bcast_S_S4194304),
    TRef.binary main_call1.v8 main_call1.v10 main_call1.v11 (cmpi .ne),
    TRef.binary main_call1.v11 main_call1.v6 main_call1.v12 andi,
    TRef.unary main_call1.call0.v0 main_call1.v13 (broadcastInDim S4194304 ![] bcast_S_S4194304),
    TRef.binary main_call1.v4 main_call1.v13 main_call1.v14 addi,
    TRef.ternary main_call1.v12 main_call1.v14 main_call1.v4 main_call1.v15 select,
    reshape main_arg1 main_v3 rfl shapeCasts_S2048x2048_S4194304,
    unary main_v3 main_v4 (sitofp .f32 : (⟨S4194304, .i32⟩ : BufTy).Contents (Elt F) → (⟨S4194304, .f32⟩ : BufTy).Contents (Elt F)) ]

/-- The first layer: the feature transform, the gather of each edge's source row, the scaling by the edge weight, the scatter-add at the targets, the bias and the rectifier. -/
abbrev cL1 : List (HloOp τ sig (Elt F)) :=
  [
    binary main_arg0 main_arg2 main_v5 ((fun l r => Host.dotGeneral dot_S2048x128_S128x20_S2048x20_1_0_0_1_n_n none l r) : (⟨S2048x128, .f32⟩ : BufTy).Contents (Elt F) → (⟨S128x20, .f32⟩ : BufTy).Contents (Elt F) → (⟨S2048x20, .f32⟩ : BufTy).Contents (Elt F)),
    nullary main_c_1 (constantI S_ 32 0#32),
    unary main_c_1 main_v6 (broadcastInDim S4194304 ![] bcast_S_S4194304 : (⟨S_, .i32⟩ : BufTy).Contents (Elt F) → (⟨S4194304, .i32⟩ : BufTy).Contents (Elt F)),
    binary main_v1 main_v6 main_v7 (cmpi .slt : (⟨S4194304, .i32⟩ : BufTy).Contents (Elt F) → (⟨S4194304, .i32⟩ : BufTy).Contents (Elt F) → (⟨S4194304, .i1⟩ : BufTy).Contents (Elt F)),
    nullary main_c_2 (constantI S_ 32 2048#32),
    unary main_c_2 main_v8 (broadcastInDim S4194304 ![] bcast_S_S4194304 : (⟨S_, .i32⟩ : BufTy).Contents (Elt F) → (⟨S4194304, .i32⟩ : BufTy).Contents (Elt F)),
    binary main_v1 main_v8 main_v9 (addi : (⟨S4194304, .i32⟩ : BufTy).Contents (Elt F) → (⟨S4194304, .i32⟩ : BufTy).Contents (Elt F) → (⟨S4194304, .i32⟩ : BufTy).Contents (Elt F)),
    ternary main_v7 main_v9 main_v1 main_v10 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v10 main_v11 (broadcastInDim S4194304x1 ![0] bcast_S4194304_S4194304x1_0 : (⟨S4194304, .i32⟩ : BufTy).Contents (Elt F) → (⟨S4194304x1, .i32⟩ : BufTy).Contents (Elt F)),
    binary main_v5 main_v11 main_v12 ((fun x i => Host.gather gather_S2048x20_S4194304x1_S4194304x20_1_0_n_n_0_1_120 x i) : (⟨S2048x20, .f32⟩ : BufTy).Contents (Elt F) → (⟨S4194304x1, .i32⟩ : BufTy).Contents (Elt F) → (⟨S4194304x20, .f32⟩ : BufTy).Contents (Elt F)),
    unary main_v4 main_v13 (broadcastInDim S4194304x1 ![0] bcast_S4194304_S4194304x1_0 : (⟨S4194304, .f32⟩ : BufTy).Contents (Elt F) → (⟨S4194304x1, .f32⟩ : BufTy).Contents (Elt F)),
    unary main_v13 main_v14 (broadcastInDim S4194304x20 ![0, 1] bcast_S4194304x1_S4194304x20_0_1 : (⟨S4194304x1, .f32⟩ : BufTy).Contents (Elt F) → (⟨S4194304x20, .f32⟩ : BufTy).Contents (Elt F)),
    binary main_v12 main_v14 main_v15 (mulf : (⟨S4194304x20, .f32⟩ : BufTy).Contents (Elt F) → (⟨S4194304x20, .f32⟩ : BufTy).Contents (Elt F) → (⟨S4194304x20, .f32⟩ : BufTy).Contents (Elt F)),
    nullary main_cst (constant S_ .f32 0x00000000#32),
    unary main_cst main_v16 (broadcastInDim S2048x20 ![] bcast_S_S2048x20 : (⟨S_, .f32⟩ : BufTy).Contents (Elt F) → (⟨S2048x20, .f32⟩ : BufTy).Contents (Elt F)),
    unary main_v2 main_v17 (broadcastInDim S4194304x1 ![0] bcast_S4194304_S4194304x1_0 : (⟨S4194304, .i32⟩ : BufTy).Contents (Elt F) → (⟨S4194304x1, .i32⟩ : BufTy).Contents (Elt F)),
    ternary main_v16 main_v17 main_v15 main_v18 ((fun x i u => Host.scatterAdd scatter_S2048x20_S4194304x1_S4194304x20_1_0_0_1 x i u) : (⟨S2048x20, .f32⟩ : BufTy).Contents (Elt F) → (⟨S4194304x1, .i32⟩ : BufTy).Contents (Elt F) → (⟨S4194304x20, .f32⟩ : BufTy).Contents (Elt F) → (⟨S2048x20, .f32⟩ : BufTy).Contents (Elt F)),
    unary main_arg5 main_v19 (broadcastInDim S1x20 ![1] bcast_S20_S1x20_1 : (⟨S20, .f32⟩ : BufTy).Contents (Elt F) → (⟨S1x20, .f32⟩ : BufTy).Contents (Elt F)),
    unary main_v19 main_v20 (broadcastInDim S2048x20 ![0, 1] bcast_S1x20_S2048x20_0_1 : (⟨S1x20, .f32⟩ : BufTy).Contents (Elt F) → (⟨S2048x20, .f32⟩ : BufTy).Contents (Elt F)),
    binary main_v18 main_v20 main_v21 (addf : (⟨S2048x20, .f32⟩ : BufTy).Contents (Elt F) → (⟨S2048x20, .f32⟩ : BufTy).Contents (Elt F) → (⟨S2048x20, .f32⟩ : BufTy).Contents (Elt F)),
    TRef.nullary main_call2.cst (constant S_ .f32 0x00000000#32),
    TRef.unary main_call2.cst main_call2.v0 (broadcastInDim S2048x20 ![] bcast_S_S2048x20),
    TRef.binary (TRef.of main_v21 : TRef sig ⟨S2048x20, .f32⟩) main_call2.v0 main_call2.v1 maximumf ]

/-- The second layer, from the first layer's result. -/
abbrev cL2 : List (HloOp τ sig (Elt F)) :=
  [
    binary main_v22 main_arg3 main_v23 ((fun l r => Host.dotGeneral dot_S2048x20_S20x20_S2048x20_1_0_0_1_n_n none l r) : (⟨S2048x20, .f32⟩ : BufTy).Contents (Elt F) → (⟨S20x20, .f32⟩ : BufTy).Contents (Elt F) → (⟨S2048x20, .f32⟩ : BufTy).Contents (Elt F)),
    nullary main_c_3 (constantI S_ 32 0#32),
    unary main_c_3 main_v24 (broadcastInDim S4194304 ![] bcast_S_S4194304 : (⟨S_, .i32⟩ : BufTy).Contents (Elt F) → (⟨S4194304, .i32⟩ : BufTy).Contents (Elt F)),
    binary main_v1 main_v24 main_v25 (cmpi .slt : (⟨S4194304, .i32⟩ : BufTy).Contents (Elt F) → (⟨S4194304, .i32⟩ : BufTy).Contents (Elt F) → (⟨S4194304, .i1⟩ : BufTy).Contents (Elt F)),
    nullary main_c_4 (constantI S_ 32 2048#32),
    unary main_c_4 main_v26 (broadcastInDim S4194304 ![] bcast_S_S4194304 : (⟨S_, .i32⟩ : BufTy).Contents (Elt F) → (⟨S4194304, .i32⟩ : BufTy).Contents (Elt F)),
    binary main_v1 main_v26 main_v27 (addi : (⟨S4194304, .i32⟩ : BufTy).Contents (Elt F) → (⟨S4194304, .i32⟩ : BufTy).Contents (Elt F) → (⟨S4194304, .i32⟩ : BufTy).Contents (Elt F)),
    ternary main_v25 main_v27 main_v1 main_v28 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v28 main_v29 (broadcastInDim S4194304x1 ![0] bcast_S4194304_S4194304x1_0 : (⟨S4194304, .i32⟩ : BufTy).Contents (Elt F) → (⟨S4194304x1, .i32⟩ : BufTy).Contents (Elt F)),
    binary main_v23 main_v29 main_v30 ((fun x i => Host.gather gather_S2048x20_S4194304x1_S4194304x20_1_0_n_n_0_1_120 x i) : (⟨S2048x20, .f32⟩ : BufTy).Contents (Elt F) → (⟨S4194304x1, .i32⟩ : BufTy).Contents (Elt F) → (⟨S4194304x20, .f32⟩ : BufTy).Contents (Elt F)),
    unary main_v4 main_v31 (broadcastInDim S4194304x1 ![0] bcast_S4194304_S4194304x1_0 : (⟨S4194304, .f32⟩ : BufTy).Contents (Elt F) → (⟨S4194304x1, .f32⟩ : BufTy).Contents (Elt F)),
    unary main_v31 main_v32 (broadcastInDim S4194304x20 ![0, 1] bcast_S4194304x1_S4194304x20_0_1 : (⟨S4194304x1, .f32⟩ : BufTy).Contents (Elt F) → (⟨S4194304x20, .f32⟩ : BufTy).Contents (Elt F)),
    binary main_v30 main_v32 main_v33 (mulf : (⟨S4194304x20, .f32⟩ : BufTy).Contents (Elt F) → (⟨S4194304x20, .f32⟩ : BufTy).Contents (Elt F) → (⟨S4194304x20, .f32⟩ : BufTy).Contents (Elt F)),
    nullary main_cst_5 (constant S_ .f32 0x00000000#32),
    unary main_cst_5 main_v34 (broadcastInDim S2048x20 ![] bcast_S_S2048x20 : (⟨S_, .f32⟩ : BufTy).Contents (Elt F) → (⟨S2048x20, .f32⟩ : BufTy).Contents (Elt F)),
    unary main_v2 main_v35 (broadcastInDim S4194304x1 ![0] bcast_S4194304_S4194304x1_0 : (⟨S4194304, .i32⟩ : BufTy).Contents (Elt F) → (⟨S4194304x1, .i32⟩ : BufTy).Contents (Elt F)),
    ternary main_v34 main_v35 main_v33 main_v36 ((fun x i u => Host.scatterAdd scatter_S2048x20_S4194304x1_S4194304x20_1_0_0_1 x i u) : (⟨S2048x20, .f32⟩ : BufTy).Contents (Elt F) → (⟨S4194304x1, .i32⟩ : BufTy).Contents (Elt F) → (⟨S4194304x20, .f32⟩ : BufTy).Contents (Elt F) → (⟨S2048x20, .f32⟩ : BufTy).Contents (Elt F)),
    unary main_arg6 main_v37 (broadcastInDim S1x20 ![1] bcast_S20_S1x20_1 : (⟨S20, .f32⟩ : BufTy).Contents (Elt F) → (⟨S1x20, .f32⟩ : BufTy).Contents (Elt F)),
    unary main_v37 main_v38 (broadcastInDim S2048x20 ![0, 1] bcast_S1x20_S2048x20_0_1 : (⟨S1x20, .f32⟩ : BufTy).Contents (Elt F) → (⟨S2048x20, .f32⟩ : BufTy).Contents (Elt F)),
    binary main_v36 main_v38 main_v39 (addf : (⟨S2048x20, .f32⟩ : BufTy).Contents (Elt F) → (⟨S2048x20, .f32⟩ : BufTy).Contents (Elt F) → (⟨S2048x20, .f32⟩ : BufTy).Contents (Elt F)),
    TRef.nullary main_call3.cst (constant S_ .f32 0x00000000#32),
    TRef.unary main_call3.cst main_call3.v0 (broadcastInDim S2048x20 ![] bcast_S_S2048x20),
    TRef.binary (TRef.of main_v39 : TRef sig ⟨S2048x20, .f32⟩) main_call3.v0 main_call3.v1 maximumf ]

/-- The third layer, from the second layer's result; no rectifier. -/
abbrev cL3 : List (HloOp τ sig (Elt F)) :=
  [
    binary main_v40 main_arg4 main_v41 ((fun l r => Host.dotGeneral dot_S2048x20_S20x20_S2048x20_1_0_0_1_n_n none l r) : (⟨S2048x20, .f32⟩ : BufTy).Contents (Elt F) → (⟨S20x20, .f32⟩ : BufTy).Contents (Elt F) → (⟨S2048x20, .f32⟩ : BufTy).Contents (Elt F)),
    nullary main_c_6 (constantI S_ 32 0#32),
    unary main_c_6 main_v42 (broadcastInDim S4194304 ![] bcast_S_S4194304 : (⟨S_, .i32⟩ : BufTy).Contents (Elt F) → (⟨S4194304, .i32⟩ : BufTy).Contents (Elt F)),
    binary main_v1 main_v42 main_v43 (cmpi .slt : (⟨S4194304, .i32⟩ : BufTy).Contents (Elt F) → (⟨S4194304, .i32⟩ : BufTy).Contents (Elt F) → (⟨S4194304, .i1⟩ : BufTy).Contents (Elt F)),
    nullary main_c_7 (constantI S_ 32 2048#32),
    unary main_c_7 main_v44 (broadcastInDim S4194304 ![] bcast_S_S4194304 : (⟨S_, .i32⟩ : BufTy).Contents (Elt F) → (⟨S4194304, .i32⟩ : BufTy).Contents (Elt F)),
    binary main_v1 main_v44 main_v45 (addi : (⟨S4194304, .i32⟩ : BufTy).Contents (Elt F) → (⟨S4194304, .i32⟩ : BufTy).Contents (Elt F) → (⟨S4194304, .i32⟩ : BufTy).Contents (Elt F)),
    ternary main_v43 main_v45 main_v1 main_v46 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v46 main_v47 (broadcastInDim S4194304x1 ![0] bcast_S4194304_S4194304x1_0 : (⟨S4194304, .i32⟩ : BufTy).Contents (Elt F) → (⟨S4194304x1, .i32⟩ : BufTy).Contents (Elt F)),
    binary main_v41 main_v47 main_v48 ((fun x i => Host.gather gather_S2048x20_S4194304x1_S4194304x20_1_0_n_n_0_1_120 x i) : (⟨S2048x20, .f32⟩ : BufTy).Contents (Elt F) → (⟨S4194304x1, .i32⟩ : BufTy).Contents (Elt F) → (⟨S4194304x20, .f32⟩ : BufTy).Contents (Elt F)),
    unary main_v4 main_v49 (broadcastInDim S4194304x1 ![0] bcast_S4194304_S4194304x1_0 : (⟨S4194304, .f32⟩ : BufTy).Contents (Elt F) → (⟨S4194304x1, .f32⟩ : BufTy).Contents (Elt F)),
    unary main_v49 main_v50 (broadcastInDim S4194304x20 ![0, 1] bcast_S4194304x1_S4194304x20_0_1 : (⟨S4194304x1, .f32⟩ : BufTy).Contents (Elt F) → (⟨S4194304x20, .f32⟩ : BufTy).Contents (Elt F)),
    binary main_v48 main_v50 main_v51 (mulf : (⟨S4194304x20, .f32⟩ : BufTy).Contents (Elt F) → (⟨S4194304x20, .f32⟩ : BufTy).Contents (Elt F) → (⟨S4194304x20, .f32⟩ : BufTy).Contents (Elt F)),
    nullary main_cst_8 (constant S_ .f32 0x00000000#32),
    unary main_cst_8 main_v52 (broadcastInDim S2048x20 ![] bcast_S_S2048x20 : (⟨S_, .f32⟩ : BufTy).Contents (Elt F) → (⟨S2048x20, .f32⟩ : BufTy).Contents (Elt F)),
    unary main_v2 main_v53 (broadcastInDim S4194304x1 ![0] bcast_S4194304_S4194304x1_0 : (⟨S4194304, .i32⟩ : BufTy).Contents (Elt F) → (⟨S4194304x1, .i32⟩ : BufTy).Contents (Elt F)),
    ternary main_v52 main_v53 main_v51 main_v54 ((fun x i u => Host.scatterAdd scatter_S2048x20_S4194304x1_S4194304x20_1_0_0_1 x i u) : (⟨S2048x20, .f32⟩ : BufTy).Contents (Elt F) → (⟨S4194304x1, .i32⟩ : BufTy).Contents (Elt F) → (⟨S4194304x20, .f32⟩ : BufTy).Contents (Elt F) → (⟨S2048x20, .f32⟩ : BufTy).Contents (Elt F)),
    unary main_arg7 main_v55 (broadcastInDim S1x20 ![1] bcast_S20_S1x20_1 : (⟨S20, .f32⟩ : BufTy).Contents (Elt F) → (⟨S1x20, .f32⟩ : BufTy).Contents (Elt F)),
    unary main_v55 main_v56 (broadcastInDim S2048x20 ![0, 1] bcast_S1x20_S2048x20_0_1 : (⟨S1x20, .f32⟩ : BufTy).Contents (Elt F) → (⟨S2048x20, .f32⟩ : BufTy).Contents (Elt F)),
    binary main_v54 main_v56 main_v57 (addf : (⟨S2048x20, .f32⟩ : BufTy).Contents (Elt F) → (⟨S2048x20, .f32⟩ : BufTy).Contents (Elt F) → (⟨S2048x20, .f32⟩ : BufTy).Contents (Elt F)) ]

/-- The head: the three layers' results side by side, the linear map and its bias, and the log-softmax. -/
abbrev cHead : List (HloOp τ sig (Elt F)) :=
  [
    nary ![main_v22, main_v40, main_v57] main_v58 (fun u => concatenate S2048x60 1 [⟨S2048x20, u 0⟩, ⟨S2048x20, u 1⟩, ⟨S2048x20, u 2⟩] concatenates_S2048x20_S2048x20_S2048x20_S2048x60_d1),
    binary main_v58 main_arg8 main_v59 ((fun l r => Host.dotGeneral dot_S2048x60_S60x10_S2048x10_1_0_0_1_n_n none l r) : (⟨S2048x60, .f32⟩ : BufTy).Contents (Elt F) → (⟨S60x10, .f32⟩ : BufTy).Contents (Elt F) → (⟨S2048x10, .f32⟩ : BufTy).Contents (Elt F)),
    unary main_arg9 main_v60 (broadcastInDim S1x10 ![1] bcast_S10_S1x10_1 : (⟨S10, .f32⟩ : BufTy).Contents (Elt F) → (⟨S1x10, .f32⟩ : BufTy).Contents (Elt F)),
    unary main_v60 main_v61 (broadcastInDim S2048x10 ![0, 1] bcast_S1x10_S2048x10_0_1 : (⟨S1x10, .f32⟩ : BufTy).Contents (Elt F) → (⟨S2048x10, .f32⟩ : BufTy).Contents (Elt F)),
    binary main_v59 main_v61 main_v62 (addf : (⟨S2048x10, .f32⟩ : BufTy).Contents (Elt F) → (⟨S2048x10, .f32⟩ : BufTy).Contents (Elt F) → (⟨S2048x10, .f32⟩ : BufTy).Contents (Elt F)),
    TRef.nullary main_call4.cst (constant S_ .f32 0xFF800000#32),
    TRef.binary (TRef.of main_v62 : TRef sig ⟨S2048x10, .f32⟩) main_call4.cst main_call4.v0 (fun x v => Host.reduce FloatOps.maximumf x v reducesTo_S2048x10_S2048_d1 h_S_),
    TRef.nullary main_call4.cst_0 (constant S_ .f32 0xFF800000#32),
    TRef.unary main_call4.cst_0 main_call4.v1 (broadcastInDim S2048 ![] bcast_S_S2048),
    TRef.binary main_call4.v1 main_call4.v0 main_call4.v2 maximumf,
    TRef.unary main_call4.v2 main_call4.v3 (broadcastInDim S2048x1 ![0] bcast_S2048_S2048x1_0),
    TRef.unary main_call4.v3 main_call4.v4 (broadcastInDim S2048x10 ![0, 1] bcast_S2048x1_S2048x10_0_1),
    TRef.binary (TRef.of main_v62 : TRef sig ⟨S2048x10, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S2048x10_S2048_d1 h_S_),
    TRef.unary main_call4.v7 main_call4.v8 (broadcastInDim S2048x1 ![0] bcast_S2048_S2048x1_0),
    TRef.unary main_call4.v8 main_call4.v9 Host.log,
    TRef.unary main_call4.v9 main_call4.v10 (broadcastInDim S2048x10 ![0, 1] bcast_S2048x1_S2048x10_0_1),
    TRef.binary main_call4.v5 main_call4.v10 main_call4.v11 subf ]

/-- The reference's operations in order, the outlined functions' bodies in line at their calls. -/
abbrev ops : List (HloOp τ sig (Elt F)) := cIdx ++ (cL1 ++ (cL2 ++ (cL3 ++ cHead)))

-- one hundred and twenty-nine sequencing steps re-associated, one recursion level each
set_option maxRecDepth 8192 in
set_option maxHeartbeats 4000000 in
/-- @main is that straight line: each outlined function's body stands at its call over the call's own buffers, and the
    sequencing, re-associated, is one chain of steps ending in the return. -/
theorem main_eq (c : Dev nD) : main (F := F) c = seq ops := by
  simp only [main, main_part0, main_part1, fn_floor_divide.body, fn_where.body, fn_remainder.body, fn_where_0.body,
    fn_relu.body, fn_log_softmax.body, bind_assoc, pure_bind]
  rfl

-- the sums, searches and tables over the edge list stay folded: the equations below never look inside them
attribute [local irreducible] Host.gather Host.scatterAdd Host.reduce Host.reduceAdd concatenate iotaInDim shapeCast

/-- The edge words after the index operations: each edge's source row. -/
theorem idx_v1 (W : Valuation τ sig (Elt F)) : after cIdx W (Proc.devRef .tc main_v1) = RefTerm.rowW F := by
  after_results_simp
  rfl

/-- Each edge's target column. -/
theorem idx_v2 (W : Valuation τ sig (Elt F)) : after cIdx W (Proc.devRef .tc main_v2) = RefTerm.colW F := by
  after_results_simp
  rfl

/-- Each edge's weight. -/
theorem idx_v4 (W : Valuation τ sig (Elt F)) :
    after cIdx W (Proc.devRef .tc main_v4) = RefTerm.edgeW (W (Proc.devRef .tc main_arg1)) := by
  after_results_simp
  rfl

/-- The first layer's result, from the edge words and the arguments as the part finds them. -/
theorem l1_v22 (W : Valuation τ sig (Elt F)) :
    after cL1 W (Proc.devRef .tc main_v22)
      = RefTerm.layer1 (W (Proc.devRef .tc main_v1)) (W (Proc.devRef .tc main_v2)) (W (Proc.devRef .tc main_v4))
          (W (Proc.devRef .tc main_arg0)) (W (Proc.devRef .tc main_arg2)) (W (Proc.devRef .tc main_arg5)) := by
  after_results_simp
  rfl

/-- The second layer's result. -/
theorem l2_v40 (W : Valuation τ sig (Elt F)) :
    after cL2 W (Proc.devRef .tc main_v40)
      = RefTerm.relu (RefTerm.layerLin (W (Proc.devRef .tc main_v1)) (W (Proc.devRef .tc main_v2)) (W (Proc.devRef .tc main_v4))
          (W (Proc.devRef .tc main_v22)) (W (Proc.devRef .tc main_arg3)) (W (Proc.devRef .tc main_arg6))) := by
  after_results_simp
  rfl

/-- The third layer's result. -/
theorem l3_v57 (W : Valuation τ sig (Elt F)) :
    after cL3 W (Proc.devRef .tc main_v57)
      = RefTerm.layerLin (W (Proc.devRef .tc main_v1)) (W (Proc.devRef .tc main_v2)) (W (Proc.devRef .tc main_v4))
          (W (Proc.devRef .tc main_v40)) (W (Proc.devRef .tc main_arg4)) (W (Proc.devRef .tc main_arg7)) := by
  after_results_simp
  rfl

/-- The log-softmax of the head's logits. -/
theorem head_v63 (W : Valuation τ sig (Elt F)) :
    after cHead W (Proc.devRef .tc main_v63)
      = RefTerm.logSoftmax (RefTerm.logits (W (Proc.devRef .tc main_v22)) (W (Proc.devRef .tc main_v40))
          (W (Proc.devRef .tc main_v57)) (W (Proc.devRef .tc main_arg8)) (W (Proc.devRef .tc main_arg9))) := by
  after_results_simp
  rfl

/-- The one buffer an operation writes lies in any list that names it. -/
private theorem wr_sub {y : Ref sig .tc} {Wl : List (Ref sig .tc)} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The buffers `cIdx` writes, in order. -/
abbrev wIdx : List (Ref sig .tc) :=
  [
    main_v0, main_c, main_call0.v0.ref, main_call0.v1.ref, main_call0.v2.ref, main_call0.v3.ref,
    main_call0.v4.ref, main_call0.v5.ref, main_call0.v6.ref, main_call0.v7.ref, main_call0.v8.ref, main_call0.c.ref,
    main_call0.v9.ref, main_call0.v10.ref, main_call0.v11.ref, main_call0.c_0.ref, main_call0.v12.ref, main_call0.v13.ref,
    main_call0.call0.v0.ref, main_c_0, main_call1.v0.ref, main_call1.c.ref, main_call1.v1.ref, main_call1.c_0.ref,
    main_call1.call0.v0.ref, main_call1.v3.ref, main_call1.v4.ref, main_call1.c_1.ref, main_call1.v5.ref, main_call1.v6.ref,
    main_call1.c_2.ref, main_call1.v7.ref, main_call1.v8.ref, main_call1.c_3.ref, main_call1.v9.ref, main_call1.v10.ref,
    main_call1.v11.ref, main_call1.v12.ref, main_call1.v13.ref, main_call1.v14.ref, main_call1.v15.ref, main_v3,
    main_v4 ]

/-- A buffer `cIdx` does not write keeps its contents. -/
theorem keep_cIdx (W : Valuation τ sig (Elt F)) {r : Ref sig .tc} (hr : r ∉ wIdx) :
    after cIdx W (Proc.devRef .tc r) = W (Proc.devRef .tc r) :=
  after_of_writes_sub cIdx W
    ⟨
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide)⟩ hr

/-- The buffers `cL1` writes, in order. -/
abbrev wL1 : List (Ref sig .tc) :=
  [
    main_v5, main_c_1, main_v6, main_v7, main_c_2, main_v8,
    main_v9, main_v10, main_v11, main_v12, main_v13, main_v14,
    main_v15, main_cst, main_v16, main_v17, main_v18, main_v19,
    main_v20, main_v21, main_call2.cst.ref, main_call2.v0.ref, main_call2.v1.ref ]

/-- A buffer `cL1` does not write keeps its contents. -/
theorem keep_cL1 (W : Valuation τ sig (Elt F)) {r : Ref sig .tc} (hr : r ∉ wL1) :
    after cL1 W (Proc.devRef .tc r) = W (Proc.devRef .tc r) :=
  after_of_writes_sub cL1 W
    ⟨
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide)⟩ hr

/-- The buffers `cL2` writes, in order. -/
abbrev wL2 : List (Ref sig .tc) :=
  [
    main_v23, main_c_3, main_v24, main_v25, main_c_4, main_v26,
    main_v27, main_v28, main_v29, main_v30, main_v31, main_v32,
    main_v33, main_cst_5, main_v34, main_v35, main_v36, main_v37,
    main_v38, main_v39, main_call3.cst.ref, main_call3.v0.ref, main_call3.v1.ref ]

/-- A buffer `cL2` does not write keeps its contents. -/
theorem keep_cL2 (W : Valuation τ sig (Elt F)) {r : Ref sig .tc} (hr : r ∉ wL2) :
    after cL2 W (Proc.devRef .tc r) = W (Proc.devRef .tc r) :=
  after_of_writes_sub cL2 W
    ⟨
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide)⟩ hr

/-- The buffers `cL3` writes, in order. -/
abbrev wL3 : List (Ref sig .tc) :=
  [
    main_v41, main_c_6, main_v42, main_v43, main_c_7, main_v44,
    main_v45, main_v46, main_v47, main_v48, main_v49, main_v50,
    main_v51, main_cst_8, main_v52, main_v53, main_v54, main_v55,
    main_v56, main_v57 ]

/-- A buffer `cL3` does not write keeps its contents. -/
theorem keep_cL3 (W : Valuation τ sig (Elt F)) {r : Ref sig .tc} (hr : r ∉ wL3) :
    after cL3 W (Proc.devRef .tc r) = W (Proc.devRef .tc r) :=
  after_of_writes_sub cL3 W
    ⟨
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide)⟩ hr

/-- The buffers `cHead` writes, in order. -/
abbrev wHead : List (Ref sig .tc) :=
  [
    main_v58, main_v59, main_v60, main_v61, main_v62, main_call4.cst.ref,
    main_call4.v0.ref, main_call4.cst_0.ref, main_call4.v1.ref, main_call4.v2.ref, main_call4.v3.ref, main_call4.v4.ref,
    main_call4.v5.ref, main_call4.v6.ref, main_call4.cst_1.ref, main_call4.v7.ref, main_call4.v8.ref, main_call4.v9.ref,
    main_call4.v10.ref, main_call4.v11.ref ]

/-- A buffer `cHead` does not write keeps its contents. -/
theorem keep_cHead (W : Valuation τ sig (Elt F)) {r : Ref sig .tc} (hr : r ∉ wHead) :
    after cHead W (Proc.devRef .tc r) = W (Proc.devRef .tc r) :=
  after_of_writes_sub cHead W
    ⟨
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide), wr_sub (by decide), wr_sub (by decide), wr_sub (by decide), wr_sub (by decide),
    wr_sub (by decide), wr_sub (by decide)⟩ hr

theorem cIdx_sub : (cIdx : List (HloOp τ sig (Elt F))).Forall fun op => op.bufs ⊆ tcRefs τ sig :=
  ⟨
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., reshape_bufs_sub ..,
    unary_bufs_sub ..⟩

theorem cIdx_fresh : (cIdx : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl⟩

theorem cL1_sub : (cL1 : List (HloOp τ sig (Elt F))).Forall fun op => op.bufs ⊆ tcRefs τ sig :=
  ⟨
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub ..⟩

theorem cL1_fresh : (cL1 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl⟩

theorem cL2_sub : (cL2 : List (HloOp τ sig (Elt F))).Forall fun op => op.bufs ⊆ tcRefs τ sig :=
  ⟨
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub ..⟩

theorem cL2_fresh : (cL2 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl⟩

theorem cL3_sub : (cL3 : List (HloOp τ sig (Elt F))).Forall fun op => op.bufs ⊆ tcRefs τ sig :=
  ⟨
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem cL3_fresh : (cL3 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl⟩

theorem cHead_sub : (cHead : List (HloOp τ sig (Elt F))).Forall fun op => op.bufs ⊆ tcRefs τ sig :=
  ⟨
    nary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub ..⟩

theorem cHead_fresh : (cHead : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl⟩

/-- The contents after the whole line are the five parts' in turn. -/
theorem after_ops (V : Valuation τ sig (Elt F)) :
    after ops V = after cHead (after cL3 (after cL2 (after cL1 (after cIdx V)))) := by
  simp only [ops, Cert.LibAfter.after_append]

/-- The result buffer after the line is the stage functions' value of the arguments: each part's result read at the
    contents the part before it left, the buffers a part does not write carried across it. -/
theorem out_eq (V : Valuation τ sig (Elt F)) :
    after ops V (Proc.devRef .tc main_v63)
      = RefTerm.out (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [after_ops, head_v63, l3_v57,
    keep_cL3 _ (r := main_v22) (by decide), keep_cL3 _ (r := main_v40) (by decide), keep_cL3 _ (r := main_arg8) (by decide), keep_cL3 _ (r := main_arg9) (by decide),
    l2_v40,
    keep_cL2 _ (r := main_v22) (by decide), keep_cL2 _ (r := main_v1) (by decide), keep_cL2 _ (r := main_v2) (by decide), keep_cL2 _ (r := main_v4) (by decide), keep_cL2 _ (r := main_arg4) (by decide), keep_cL2 _ (r := main_arg7) (by decide), keep_cL2 _ (r := main_arg8) (by decide), keep_cL2 _ (r := main_arg9) (by decide),
    l1_v22,
    keep_cL1 _ (r := main_v1) (by decide), keep_cL1 _ (r := main_v2) (by decide), keep_cL1 _ (r := main_v4) (by decide), keep_cL1 _ (r := main_arg3) (by decide), keep_cL1 _ (r := main_arg6) (by decide), keep_cL1 _ (r := main_arg4) (by decide), keep_cL1 _ (r := main_arg7) (by decide), keep_cL1 _ (r := main_arg8) (by decide), keep_cL1 _ (r := main_arg9) (by decide),
    idx_v1, idx_v2, idx_v4,
    keep_cIdx _ (r := main_arg0) (by decide), keep_cIdx _ (r := main_arg2) (by decide), keep_cIdx _ (r := main_arg3) (by decide), keep_cIdx _ (r := main_arg4) (by decide), keep_cIdx _ (r := main_arg5) (by decide), keep_cIdx _ (r := main_arg6) (by decide), keep_cIdx _ (r := main_arg7) (by decide), keep_cIdx _ (r := main_arg8) (by decide), keep_cIdx _ (r := main_arg9) (by decide)]
  rfl

/-- An argument's buffer is written by no operation of the line. -/
theorem arg_eq (V : Valuation τ sig (Elt F)) {r : Ref sig .tc} (h0 : r ∉ wIdx) (h1 : r ∉ wL1) (h2 : r ∉ wL2) (h3 : r ∉ wL3)
    (h4 : r ∉ wHead) : after (ops (F := F)) V (Proc.devRef .tc r) = V (Proc.devRef .tc r) := by
  rw [after_ops, keep_cHead _ h4, keep_cL3 _ h3, keep_cL2 _ h2, keep_cL1 _ h1, keep_cIdx _ h0]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨cIdx_sub, List.forall_append.mpr ⟨cL1_sub, List.forall_append.mpr ⟨cL2_sub,
    List.forall_append.mpr ⟨cL3_sub, cHead_sub⟩⟩⟩⟩

theorem ops_fresh : ∀ op ∈ (ops : List (HloOp τ sig (Elt F))), op.fresh = ∅ :=
  List.forall_iff_forall_mem.mp (List.forall_append.mpr ⟨cIdx_fresh, List.forall_append.mpr ⟨cL1_fresh,
    List.forall_append.mpr ⟨cL2_fresh, List.forall_append.mpr ⟨cL3_fresh, cHead_fresh⟩⟩⟩⟩)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = RefTerm.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v63).trans (out_eq (launchContents m c)),
      (h c main_arg0).trans (arg_eq (launchContents m c) (by decide) (by decide) (by decide) (by decide) (by decide)),
      (h c main_arg1).trans (arg_eq (launchContents m c) (by decide) (by decide) (by decide) (by decide) (by decide)),
      (h c main_arg2).trans (arg_eq (launchContents m c) (by decide) (by decide) (by decide) (by decide) (by decide)),
      (h c main_arg3).trans (arg_eq (launchContents m c) (by decide) (by decide) (by decide) (by decide) (by decide)),
      (h c main_arg4).trans (arg_eq (launchContents m c) (by decide) (by decide) (by decide) (by decide) (by decide)),
      (h c main_arg5).trans (arg_eq (launchContents m c) (by decide) (by decide) (by decide) (by decide) (by decide)),
      (h c main_arg6).trans (arg_eq (launchContents m c) (by decide) (by decide) (by decide) (by decide) (by decide)),
      (h c main_arg7).trans (arg_eq (launchContents m c) (by decide) (by decide) (by decide) (by decide) (by decide)),
      (h c main_arg8).trans (arg_eq (launchContents m c) (by decide) (by decide) (by decide) (by decide) (by decide)),
      (h c main_arg9).trans (arg_eq (launchContents m c) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.RefIndex.lean ====
/-
  The row and column words of the flat edge list: at position e they are e / 2048 and e % 2048.
-/
import proofs.«111349_g36472862278099_cont_sun_m_1164_2_alg».proof.Proof.RefTerm
import Idealize.ShloMosaic.Lib.ValueIdx
import Idealize.ShloMosaic.Lib.StableHlo.Predicate

noncomputable section

namespace Cert.ReferenceIdeal.RefIndex

open Idealize.ShloMosaic Idealize.ShloMosaic.ValueIdx Cert.ReferenceIdeal Cert.ReferenceIdeal.Gen Cert.ReferenceIdeal.RefTerm

variable {F : FTy → Type} [FloatOps F]

/-! ## One word: a position n below 2048 · 2048, divided by 2048 -/

/-- A position is its own value as a word. -/
private theorem toNat_pos (n : ℕ) (hn : n < 4194304) : (BitVec.ofNat 32 n).toNat = n := by
  rw [BitVec.toNat_ofNat]; exact Nat.mod_eq_of_lt (by omega)

/-- A position is non-negative as a signed word. -/
private theorem msb_pos (n : ℕ) (hn : n < 4194304) : (BitVec.ofNat 32 n).msb = false :=
  BitVec.msb_eq_false_iff_two_mul_lt.mpr (by rw [toNat_pos n hn]; omega)

/-- Division by 2048 meets no corner. -/
private theorem not_corner (x : BitVec 32) : ¬ IntOp.SDivCorner x 2048#32 := by
  intro hc; rcases hc with hc | ⟨_, hc⟩ <;> exact absurd hc (by decide)

private theorem toNat_2048 : (2048#32 : BitVec 32).toNat = 2048 := by decide

private theorem msb_2048 : (2048#32 : BitVec 32).msb = false := by decide

/-- The truncated quotient of a position by 2048 is the quotient of the naturals. -/
private theorem divsi_pos (n : ℕ) (hn : n < 4194304) :
    IntOp.divsi .host (BitVec.ofNat 32 n) 2048#32 = BitVec.ofNat 32 (n / 2048) := by
  apply BitVec.eq_of_toNat_eq
  have hq : n / 2048 < 4194304 := lt_of_le_of_lt (Nat.div_le_self _ _) hn
  simp only [IntOp.divsi, if_neg (not_corner _), BitVec.sdiv_eq, msb_pos n hn, msb_2048, BitVec.udiv_eq,
    BitVec.toNat_udiv, toNat_pos n hn, toNat_2048, toNat_pos _ hq]

/-- The truncated remainder of a position by 2048 is the remainder of the naturals. -/
private theorem remsi_pos (n : ℕ) (hn : n < 4194304) :
    IntOp.remsi .host (BitVec.ofNat 32 n) 2048#32 = BitVec.ofNat 32 (n % 2048) := by
  apply BitVec.eq_of_toNat_eq
  have hr : n % 2048 < 4194304 := lt_of_le_of_lt (Nat.mod_le _ _) hn
  simp only [IntOp.remsi, if_neg (not_corner _), BitVec.srem_eq, msb_pos n hn, msb_2048, BitVec.umod_eq,
    BitVec.toNat_umod, toNat_pos n hn, toNat_2048, toNat_pos _ hr]

/-- The floor-division word of a position: the correction is never taken, the signs differing only at position 0,
    whose remainder is zero. -/
private theorem row_word (n : ℕ) (hn : n < 4194304) :
    Scalar.select
      (IntOp.andi
        (IntOp.cmpi .ne
          (if BitVec.ofNat 32 n = 0 then (0 : BitVec 32) else if (BitVec.ofNat 32 n).msb then -1 else 1)
          (if (2048#32 : BitVec 32) = 0 then (0 : BitVec 32) else if (2048#32 : BitVec 32).msb then -1 else 1))
        (IntOp.cmpi .ne (IntOp.remsi .host (BitVec.ofNat 32 n) 2048#32) 0#32))
      (IntOp.subi (IntOp.divsi .host (BitVec.ofNat 32 n) 2048#32) 1#32)
      (IntOp.divsi .host (BitVec.ofNat 32 n) 2048#32) = BitVec.ofNat 32 (n / 2048) := by
  have hmask : IntOp.andi
        (IntOp.cmpi .ne
          (if BitVec.ofNat 32 n = 0 then (0 : BitVec 32) else if (BitVec.ofNat 32 n).msb then -1 else 1)
          (if (2048#32 : BitVec 32) = 0 then (0 : BitVec 32) else if (2048#32 : BitVec 32).msb then -1 else 1))
        (IntOp.cmpi .ne (IntOp.remsi .host (BitVec.ofNat 32 n) 2048#32) 0#32) = 0#1 := by
    have hs : (if (2048#32 : BitVec 32) = 0 then (0 : BitVec 32) else if (2048#32 : BitVec 32).msb then -1 else 1) = 1#32 := by
      decide
    rw [hs]
    by_cases h0 : n = 0
    · subst h0
      rw [remsi_pos 0 (by omega)]
      show IntOp.andi _ (IntOp.cmpi .ne (BitVec.ofNat 32 0) 0#32) = 0#1
      have : IntOp.cmpi .ne (BitVec.ofNat 32 0) 0#32 = 0#1 := by decide
      rw [this]; exact BitVec.and_zero
    · have hne : BitVec.ofNat 32 n ≠ 0 := by
        intro h; apply h0
        have := congrArg BitVec.toNat h
        rw [toNat_pos n hn] at this; simpa using this
      rw [if_neg hne, msb_pos n hn]
      have : IntOp.cmpi .ne (if false = true then (-1 : BitVec 32) else 1) 1#32 = 0#1 := by decide
      rw [this]; exact BitVec.zero_and
  rw [hmask, divsi_pos n hn]
  exact if_neg (by decide)

/-- The remainder word of a position: the truncated remainder is not negative, nor is the modulus, so the correction
    is never taken. -/
private theorem col_word (n : ℕ) (hn : n < 4194304) :
    Scalar.select
      (IntOp.andi
        (IntOp.cmpi .ne
          (IntOp.cmpi .slt
            (IntOp.remsi .host (BitVec.ofNat 32 n) (Scalar.select (IntOp.cmpi .eq 2048#32 0#32) 1#32 2048#32)) 0#32)
          (IntOp.cmpi .slt (Scalar.select (IntOp.cmpi .eq 2048#32 0#32) 1#32 2048#32) 0#32))
        (IntOp.cmpi .ne
          (IntOp.remsi .host (BitVec.ofNat 32 n) (Scalar.select (IntOp.cmpi .eq 2048#32 0#32) 1#32 2048#32)) 0#32))
      (IntOp.addi (IntOp.remsi .host (BitVec.ofNat 32 n) (Scalar.select (IntOp.cmpi .eq 2048#32 0#32) 1#32 2048#32))
        (Scalar.select (IntOp.cmpi .eq 2048#32 0#32) 1#32 2048#32))
      (IntOp.remsi .host (BitVec.ofNat 32 n) (Scalar.select (IntOp.cmpi .eq 2048#32 0#32) 1#32 2048#32))
      = BitVec.ofNat 32 (n % 2048) := by
  have hm : Scalar.select (IntOp.cmpi .eq (2048#32 : BitVec 32) 0#32) (1#32 : BitVec 32) 2048#32 = 2048#32 := by decide
  rw [hm, remsi_pos n hn]
  have hr : n % 2048 < 4194304 := lt_of_le_of_lt (Nat.mod_le _ _) hn
  have h1 : IntOp.cmpi .slt (BitVec.ofNat 32 (n % 2048)) 0#32 = 0#1 := by
    rcases BitVec.eq_zero_or_eq_one (IntOp.cmpi .slt (BitVec.ofNat 32 (n % 2048)) 0#32) with h | h
    · exact h
    · exfalso
      have := (StableHlo.Predicate.slt_iff_toNat (a := BitVec.ofNat 32 (n % 2048)) (b := 0#32)
        (by rw [toNat_pos _ hr]; omega) (by decide)).mp h
      simp at this
  have h2 : IntOp.cmpi .slt (2048#32 : BitVec 32) 0#32 = 0#1 := by decide
  have h3 : IntOp.cmpi .ne (0#1 : BitVec 1) 0#1 = 0#1 := by decide
  rw [h1, h2, h3]
  have : IntOp.andi (0#1 : BitVec 1) (IntOp.cmpi .ne (BitVec.ofNat 32 (n % 2048)) 0#32) = 0#1 := BitVec.zero_and
  rw [this]
  exact if_neg (by decide)

/-! ## The two vectors read at a position -/

/-- The source node of edge e is e / 2048. -/
theorem rowW_apply (e : Fin 4194304) : rowW F (ix1 e) = BitVec.ofNat 32 (e.val / 2048) :=
  row_word e.val e.isLt

/-- The target node of edge e is e % 2048. -/
theorem colW_apply (e : Fin 4194304) : colW F (ix1 e) = BitVec.ofNat 32 (e.val % 2048) :=
  col_word e.val e.isLt

end Cert.ReferenceIdeal.RefIndex

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefConv.lean ====
/-
  The aggregation read at an entry: with the row word of edge e equal to e / 2048 and its column word e % 2048, node c
  receives, in feature f, the sum over source nodes r of h(r, f) times the adjacency's entry (r, c).
-/
import proofs.«111349_g36472862278099_cont_sun_m_1164_2_alg».proof.Proof.RefTerm
import proofs.«111349_g36472862278099_cont_sun_m_1164_2_alg».proof.Proof.LibGatherScatter
import Idealize.ShloMosaic.Lib.ValueIdx
import Idealize.ShloMosaic.Lib.Pipeline.Value
import Idealize.ShloMosaic.Lib.StableHlo.Predicate
import Idealize.ShloMosaic.PureOps.Ideal.Laws

open scoped BigOperators

noncomputable section

namespace Cert.ReferenceIdeal.RefConv

open Idealize.ShloMosaic Idealize.ShloMosaic.ValueIdx Cert.ReferenceIdeal Cert.ReferenceIdeal.Gen Cert.ReferenceIdeal.RefTerm
open Idealize.ShloMosaic.RowOps Idealize.ShloMosaic.StableHlo.Predicate

/-- A 32-bit word made from a number below 2048 reads signed as that number. -/
private theorem toInt_ofNat_small (k : Nat) (hk : k < 2048) : (BitVec.ofNat 32 k).toInt = (k : Int) := by
  have h1 : (BitVec.ofNat 32 k).toNat = k := by
    rw [BitVec.toNat_ofNat]
    exact Nat.mod_eq_of_lt (by omega)
  rw [BitVec.toInt_eq_toNat_of_lt (by rw [h1]; omega), h1]

/-- The two spellings of a rank-2 index by its coordinates agree. -/
private theorem ij_eq_ix2 {n m : Nat} (p : Fin n) (q : Fin m) : ij p q = ix2 p q := by
  funext a
  match a with
  | ⟨0, _⟩ => rfl
  | ⟨1, _⟩ => rfl

/-- The column of target words: edge e lands on node i exactly when e % 2048 = i. -/
private theorem lands_col (col : Cn Ideal S4194304 .i32)
    (hc : ∀ e : Fin 4194304, col (ix1 e) = BitVec.ofNat 32 (e.val % 2048)) (e : Fin 4194304) (i : Nat) :
    lands (broadcastInDim S4194304x1 ![0] bcast_S4194304_S4194304x1_0 col) e i ↔ e.val % 2048 = i := by
  unfold lands
  rw [bcast_col1, ofFin_eq_ix1, hc e, toInt_ofNat_small _ (Nat.mod_lt _ (by omega))]
  exact Int.natCast_inj

/-- The column of source rows read at an edge: the edge's source node e / 2048, the word not being negative. -/
private theorem lands_src (row : Cn Ideal S4194304 .i32)
    (hr : ∀ e : Fin 4194304, row (ix1 e) = BitVec.ofNat 32 (e.val / 2048)) (e : Fin 4194304) :
    lands (srcIdx (F := Ideal) row) e (e.val / 2048) := by
  have he := e.isLt
  have hlt : e.val / 2048 < 2048 := by omega
  unfold lands srcIdx
  rw [bcast_col1, ofFin_eq_ix1, select_apply]
  have hcond : cmpi .slt row (broadcastInDim S4194304 ![] bcast_S_S4194304 (constantI S_ 32 0#32 : Cn Ideal S_ .i32)) (ix1 e) = 0#1 := by
    show IntOp.cmpi .slt (row (ix1 e)) 0#32 = 0#1
    rw [hr e]
    show BitVec.ofBool ((BitVec.ofNat 32 (e.val / 2048)).slt 0#32) = 0#1
    have : (BitVec.ofNat 32 (e.val / 2048)).slt 0#32 = false := by
      rw [BitVec.slt_eq_decide, toInt_ofNat_small _ hlt]
      simp
      omega
    rw [this]
    rfl
  rw [hcond, select_zero, hr e]
  exact toInt_ofNat_small _ hlt

/-- The flattened adjacency as a float at edge e = r · 2048 + c: the entry (r, c). -/
private theorem edgeW_apply (adj : Cn Ideal S2048x2048 .i32) (e : Fin 4194304) (r c : Fin 2048)
    (hrc : r.val * 2048 + c.val = e.val) :
    edgeW (F := Ideal) adj (ix1 e) = (((adj (ix2 r c)).toInt : ℝ) : EReal) := by
  show (((shapeCast S4194304 adj shapeCasts_S2048x2048_S4194304 (ix1 e)).toInt : ℝ) : EReal) = _
  rw [shapeCast_apply adj shapeCasts_S2048x2048_S4194304 (ix1 e) (ix2 r c)
    (by rw [Shape.rowMajor_val_two, Shape.rowMajor_val_one]; exact hrc)]

/-- The message of edge e = r · 2048 + c in feature f: the source's feature times the adjacency's entry (r, c). -/
private theorem msgs_apply (row : Cn Ideal S4194304 .i32)
    (hr : ∀ e : Fin 4194304, row (ix1 e) = BitVec.ofNat 32 (e.val / 2048))
    (adj : Cn Ideal S2048x2048 .i32) (h : Cn Ideal S2048x20 .f32) (e : Fin 4194304) (f : Fin 20) (r c : Fin 2048)
    (hrc : r.val * 2048 + c.val = e.val) :
    msgs (F := Ideal) row (edgeW adj) h (ix2 e f) = h (ix2 r f) * (((adj (ix2 r c)).toInt : ℝ) : EReal) := by
  have hcl : clampRow 2048 (by omega) (srcIdx (F := Ideal) row) e = r := by
    apply clampRow_of_lands
    have hq : e.val / 2048 = r.val := by have := c.isLt; omega
    rw [← hq]
    exact lands_src row hr e
  unfold msgs
  rw [mulf_apply, gather_rows gather_S2048x20_S4194304x1_S4194304x20_1_0_n_n_0_1_120 rfl rfl rfl rfl rfl rfl h (srcIdx (F := Ideal) row) e f (by omega : 0 < 2048), hcl,
    ← ij_eq_ix2 e f, bcast_rows, ofFin_eq_ix1, edgeW_apply adj e r c hrc]

/-- The accumulating scatter at the ideal instance: each operand element plus the sum of the updates landing on it. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

theorem aggr_apply (row col : Cn Ideal S4194304 .i32)
    (hr : ∀ e : Fin 4194304, row (ix1 e) = BitVec.ofNat 32 (e.val / 2048))
    (hc : ∀ e : Fin 4194304, col (ix1 e) = BitVec.ofNat 32 (e.val % 2048))
    (adj : Cn Ideal S2048x2048 .i32) (h : Cn Ideal S2048x20 .f32) (c : Fin 2048) (f : Fin 20) :
    aggr (F := Ideal) row col (edgeW adj) h (ix2 c f)
      = ∑ r : Fin 2048, h (ix2 r f) * (((adj (ix2 r c)).toInt : ℝ) : EReal) := by
  have hz : broadcastInDim S2048x20 ![] bcast_S_S2048x20 (constant (F := Ideal) S_ .f32 0x00000000#32) (ix2 c f)
      = (0 : EReal) := Ideal.ofBits_zero_f32
  unfold aggr
  rewrite [scatterAdd_ideal, scatterAdd_rows scatter_S2048x20_S4194304x1_S4194304x20_1_0_0_1 rfl rfl rfl rfl, hz, zero_add]
  have hcv := c.isLt
  refine Finset.sum_bij'
    (fun e _ => (⟨e.val / 2048, by have := e.isLt; omega⟩ : Fin 2048))
    (fun r _ => (⟨r.val * 2048 + c.val, by have := r.isLt; omega⟩ : Fin 4194304)) ?_ ?_ ?_ ?_ ?_
  · intro e _
    exact Finset.mem_univ _
  · intro r _
    refine Finset.mem_filter.2 ⟨Finset.mem_univ _, (lands_col col hc _ _).2 ?_⟩
    show (r.val * 2048 + c.val) % 2048 = c.val
    omega
  · intro e he
    have hm := (lands_col col hc e c.val).1 (Finset.mem_filter.1 he).2
    apply Fin.ext
    show e.val / 2048 * 2048 + c.val = e.val
    omega
  · intro r _
    apply Fin.ext
    show (r.val * 2048 + c.val) / 2048 = r.val
    omega
  · intro e he
    have hm := (lands_col col hc e c.val).1 (Finset.mem_filter.1 he).2
    exact msgs_apply row hr adj h e f ⟨e.val / 2048, by have := e.isLt; omega⟩ c
      (by show e.val / 2048 * 2048 + c.val = e.val; omega)

end Cert.ReferenceIdeal.RefConv

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«111349_g36472862278099_cont_sun_m_1164_2_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefLayers.lean ====
/-
  The reference's layers read at an entry: each is a graph convolution of GcnSpec over the features' and weights'
  coordinates, the first two followed by max(·, 0).
-/
import proofs.«111349_g36472862278099_cont_sun_m_1164_2_alg».proof.Proof.RefTerm
import proofs.«111349_g36472862278099_cont_sun_m_1164_2_alg».proof.Proof.RefConv
import proofs.«111349_g36472862278099_cont_sun_m_1164_2_alg».proof.Proof.GcnSpec
import proofs.«111349_g36472862278099_cont_sun_m_1164_2_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

open scoped BigOperators

noncomputable section

namespace Cert.ReferenceIdeal.RefLayers

open Idealize.ShloMosaic Idealize.ShloMosaic.ValueIdx Cert.ReferenceIdeal Cert.ReferenceIdeal.Gen Cert.ReferenceIdeal.RefTerm

/-- max(·, 0) at an entry. -/
theorem relu_apply (v : Cn Ideal S2048x20 .f32) (c : Fin 2048) (f : Fin 20) :
    relu (F := Ideal) v (ix2 c f) = max (v (ix2 c f)) 0 := by
  unfold relu
  rw [maximumf_apply, broadcastInDim_scalar_apply, constant_apply, Ideal.ofBits_zero_f32]

/-- A bias row added to every node, at an entry: the bias's entry f is added. -/
theorem biased_apply (v : Cn Ideal S2048x20 .f32) (b : Cn Ideal S20 .f32) (c : Fin 2048) (f : Fin 20) :
    biased (F := Ideal) v b (ix2 c f) = v (ix2 c f) + b (ix1 f) := by
  unfold biased
  rw [addf_apply, broadcastInDim_oneRow_apply]
  congr 1
  refine broadcastInDim_apply _ _ _ _ (ix1 f) ?_
  intro a
  fin_cases a
  rfl

/-- The first layer at an entry. -/
theorem layer1_apply (row col : Cn Ideal S4194304 .i32)
    (hr : ∀ e : Fin 4194304, row (ix1 e) = BitVec.ofNat 32 (e.val / 2048))
    (hc : ∀ e : Fin 4194304, col (ix1 e) = BitVec.ofNat 32 (e.val % 2048))
    (adj : Cn Ideal S2048x2048 .i32) (x : Cn Ideal S2048x128 .f32) (W : Cn Ideal S128x20 .f32) (b : Cn Ideal S20 .f32)
    (c : Fin 2048) (f : Fin 20) :
    layer1 (F := Ideal) row col (edgeW adj) x W b (ix2 c f)
      = Cert.Gcn.convRelu (fun r c => (((adj (ix2 r c)).toInt : ℝ) : EReal)) (fun r k => x (ix2 r k)) (fun k f => W (ix2 k f)) (fun f => b (ix1 f)) c f := by
  unfold layer1
  rw [relu_apply, biased_apply, RefConv.aggr_apply row col hr hc]
  unfold Cert.Gcn.convRelu Cert.Gcn.conv Cert.Gcn.agg Cert.Gcn.lin
  congr 2
  refine Finset.sum_congr rfl fun r _ => ?_
  congr 1
  exact PlainMatmul.dotGeneral_apply _ (dot_S2048x128_S128x20_S2048x20_1_0_0_1_n_n).wf rfl none .single x W r f

/-- A later layer, before its nonlinearity, at an entry. -/
theorem layerLin_apply (row col : Cn Ideal S4194304 .i32)
    (hr : ∀ e : Fin 4194304, row (ix1 e) = BitVec.ofNat 32 (e.val / 2048))
    (hc : ∀ e : Fin 4194304, col (ix1 e) = BitVec.ofNat 32 (e.val % 2048))
    (adj : Cn Ideal S2048x2048 .i32) (x : Cn Ideal S2048x20 .f32) (W : Cn Ideal S20x20 .f32) (b : Cn Ideal S20 .f32)
    (c : Fin 2048) (f : Fin 20) :
    layerLin (F := Ideal) row col (edgeW adj) x W b (ix2 c f)
      = Cert.Gcn.conv (fun r c => (((adj (ix2 r c)).toInt : ℝ) : EReal)) (fun r k => x (ix2 r k)) (fun k f => W (ix2 k f)) (fun f => b (ix1 f)) c f := by
  unfold layerLin
  rw [biased_apply, RefConv.aggr_apply row col hr hc]
  unfold Cert.Gcn.conv Cert.Gcn.agg Cert.Gcn.lin
  congr 1
  refine Finset.sum_congr rfl fun r _ => ?_
  congr 1
  exact PlainMatmul.dotGeneral_apply _ (dot_S2048x20_S20x20_S2048x20_1_0_0_1_n_n).wf rfl none .single x W r f

end Cert.ReferenceIdeal.RefLayers

end
-- ==== Proof.RefHead.lean ====
/-
  The reference's head read at an entry: the logits are GcnSpec's head over the three layers' outputs side by side, and
  the log-softmax is GcnSpec's over each node's ten logits.
-/
import proofs.«111349_g36472862278099_cont_sun_m_1164_2_alg».proof.Proof.RefTerm
import proofs.«111349_g36472862278099_cont_sun_m_1164_2_alg».proof.Proof.GcnSpec
import proofs.«111349_g36472862278099_cont_sun_m_1164_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

open scoped BigOperators

noncomputable section

namespace Cert.ReferenceIdeal.RefHead

open Idealize.ShloMosaic Idealize.ShloMosaic.ValueIdx Cert.ReferenceIdeal Cert.ReferenceIdeal.Gen Cert.ReferenceIdeal.RefTerm

/-- The three layers' outputs side by side, read at node n and column k: the block that holds k. -/
private theorem cat_apply (u v w : Cn Ideal S2048x20 .f32) (n : Fin 2048) (k : Fin 60) :
    concatenate S2048x60 1 [⟨S2048x20, u⟩, ⟨S2048x20, v⟩, ⟨S2048x20, w⟩]
        concatenates_S2048x20_S2048x20_S2048x20_S2048x60_d1 (ix2 n k)
      = Cert.Gcn.feats (fun n k => u (ix2 n k)) (fun n k => v (ix2 n k)) (fun n k => w (ix2 n k)) n k := by
  unfold Cert.Gcn.feats
  have hoff : ∀ (i : Fin 20) (b : Fin S2048x20.rank), b.cast (rfl : S2048x20.rank = S2048x60.rank) ≠ (1 : Fin 2) →
      ((ix2 n i : S2048x20.Idx) b).val = ((ix2 n k : S2048x60.Idx) (b.cast rfl)).val := by
    intro i b hb
    match b, hb with
    | ⟨0, _⟩, _ => rfl
    | ⟨1, _⟩, hb => exact absurd rfl hb
  have hlen : ∀ m : Nat, m < 3 → m < ([⟨S2048x20, u⟩, ⟨S2048x20, v⟩, ⟨S2048x20, w⟩] :
      List ((s : Shape) × (s.Idx → Ideal .f32))).length := fun m hm => hm
  by_cases h1 : k.val < 20
  · rw [dif_pos h1]
    exact concatenate_apply_piece (1 : Fin 2) _ _ (ix2 n k) 0 (hlen 0 (by omega)) S2048x20 u rfl rfl 0 rfl
      (ix2 n ⟨k.val, h1⟩) (hoff _) (by show 0 + k.val = k.val; omega)
  · rw [dif_neg h1]
    by_cases h2 : k.val < 40
    · rw [dif_pos h2]
      exact concatenate_apply_piece (1 : Fin 2) _ _ (ix2 n k) 1 (hlen 1 (by omega)) S2048x20 v rfl rfl 20 rfl
        (ix2 n ⟨k.val - 20, by omega⟩) (hoff _) (by show 20 + (k.val - 20) = k.val; omega)
    · rw [dif_neg h2]
      exact concatenate_apply_piece (1 : Fin 2) _ _ (ix2 n k) 2 (hlen 2 (by omega)) S2048x20 w rfl rfl 40 rfl
        (ix2 n ⟨k.val - 40, by omega⟩) (hoff _) (by show 40 + (k.val - 40) = k.val; omega)

/-- The logits at node n and class j. -/
theorem logits_apply (u v w : Cn Ideal S2048x20 .f32) (LW : Cn Ideal S60x10 .f32) (lb : Cn Ideal S10 .f32)
    (n : Fin 2048) (j : Fin 10) :
    logits (F := Ideal) u v w LW lb (ix2 n j)
      = Cert.Gcn.logit (fun n k => u (ix2 n k)) (fun n k => v (ix2 n k)) (fun n k => w (ix2 n k))
          (fun k j => LW (ix2 k j)) (fun j => lb (ix1 j)) n j := by
  unfold logits Cert.Gcn.logit
  rw [addf_apply]
  have hb : broadcastInDim S2048x10 ![0, 1] bcast_S1x10_S2048x10_0_1 (broadcastInDim S1x10 ![1] bcast_S10_S1x10_1 lb) (ix2 n j)
      = lb (ix1 j) := by
    rw [broadcastInDim_apply ![0, 1] bcast_S1x10_S2048x10_0_1 _ (ix2 n j) (ix2 (0 : Fin 1) j)
      (fun a => by match a with | ⟨0, _⟩ => rfl | ⟨1, _⟩ => rfl)]
    exact broadcastInDim_apply ![1] bcast_S10_S1x10_1 lb (ix2 (0 : Fin 1) j) (ix1 j)
      (fun a => by match a with | ⟨0, _⟩ => rfl)
  rw [hb]
  congr 1
  have hd := PlainMatmul.dotGeneral_apply (m := 2048) (k := 60) (n := 10) (φ₁ := .f32) (φ₂ := .f32)
    dot_S2048x60_S60x10_S2048x10_1_0_0_1_n_n dot_S2048x60_S60x10_S2048x10_1_0_0_1_n_n.wf rfl none .single
    (concatenate S2048x60 1 [⟨S2048x20, u⟩, ⟨S2048x20, v⟩, ⟨S2048x20, w⟩] concatenates_S2048x20_S2048x20_S2048x20_S2048x60_d1)
    LW n j
  refine hd.trans ?_
  exact Finset.sum_congr rfl fun c _ => by rw [cat_apply]

/-- The shape fact of a reduction over the classes' axis, in the form that names the inserted index. -/
private theorem reduces_cls : Shape.Reduces S2048x10 [1] S2048 := by decide

/-- The reduced index n with class k inserted is (n, k). -/
private theorem lift_eq (n : Fin 2048) (k : Fin 10) : reduces_cls.lift (ix1 n) k = ix2 n k := by
  funext c
  apply Fin.ext
  match c with
  | ⟨0, _⟩ => rfl
  | ⟨1, _⟩ => rfl

/-- The word 0xFF800000 is −∞. -/
private theorem ofBits_neg_inf : Ideal.ofBits .f32 0xFF800000#32 = (⊥ : EReal) := by simp [Ideal.ofBits, Ideal.ieee]

/-- The host's logarithm and exponential at an index. -/
private theorem hostLog_apply {s : Shape} (x : FVec Ideal s .f32) (i : s.Idx) : Host.log x i = Ideal.log (x i) := rfl
private theorem hostExp_apply {s : Shape} (x : FVec Ideal s .f32) (i : s.Idx) : Host.exp x i = Ideal.exp (x i) := rfl

/-- A column of per-node values spread over the ten classes reads the node's value. -/
private theorem spread_apply (x : Cn Ideal S2048 .f32) (n : Fin 2048) (j : Fin 10) :
    broadcastInDim S2048x10 ![0, 1] bcast_S2048x1_S2048x10_0_1 (broadcastInDim S2048x1 ![0] bcast_S2048_S2048x1_0 x) (ix2 n j)
      = x (ix1 n) := by
  rw [broadcastInDim_apply ![0, 1] bcast_S2048x1_S2048x10_0_1 _ (ix2 n j) (ix2 n (0 : Fin 1))
      (fun a => by match a with | ⟨0, _⟩ => rfl | ⟨1, _⟩ => rfl)]
  exact broadcastInDim_apply ![0] bcast_S2048_S2048x1_0 x (ix2 n (0 : Fin 1)) (ix1 n)
      (fun a => by match a with | ⟨0, _⟩ => rfl)

/-- The shifted logits at node n and class j: the logit less the maximum of the node's ten. -/
private theorem shifted_apply (l : Cn Ideal S2048x10 .f32) (n : Fin 2048) (j : Fin 10) :
    shifted (F := Ideal) l (ix2 n j)
      = l (ix2 n j) - Finset.univ.fold max (⊥ : EReal) (fun j' : Fin 10 => l (ix2 n j')) := by
  unfold shifted
  rw [subf_apply, spread_apply, maximumf_apply,
    broadcastInDim_apply ![] bcast_S_S2048 _ (ix1 n) ix0 (fun a => a.elim0),
    Host.reduce_eq_fold_single (α := Ideal .f32) (FloatOps.maximumf (F := Ideal) (φ := .f32)) l
      (constant (F := Ideal) S_ .f32 0xFF800000#32) reducesTo_S2048x10_S2048_d1 reduces_cls h_S_ (ix1 n)]
  simp only [constant_apply, ofBits_neg_inf]
  rw [max_eq_right bot_le]
  have hl : (l ∘ reduces_cls.lift (ix1 n)) = fun j' : Fin 10 => l (ix2 n j') :=
    funext fun k => congrArg l (lift_eq n k)
  rw [hl]
  rfl

/-- The log-softmax at node n and class j. -/
theorem logSoftmax_apply (l : Cn Ideal S2048x10 .f32) (n : Fin 2048) (j : Fin 10) :
    logSoftmax (F := Ideal) l (ix2 n j) = Cert.Gcn.lsm (fun j' => l (ix2 n j')) j := by
  unfold logSoftmax Cert.Gcn.lsm
  rw [subf_apply, shifted_apply]
  refine congrArg (fun t => (l (ix2 n j) - Finset.univ.fold max (⊥ : EReal) (fun j' : Fin 10 => l (ix2 n j'))) - t) ?_
  rw [broadcastInDim_apply ![0, 1] bcast_S2048x1_S2048x10_0_1 _ (ix2 n j) (ix2 n (0 : Fin 1))
      (fun a => by match a with | ⟨0, _⟩ => rfl | ⟨1, _⟩ => rfl),
    hostLog_apply,
    broadcastInDim_apply ![0] bcast_S2048_S2048x1_0 _ (ix2 n (0 : Fin 1)) (ix1 n)
      (fun a => by match a with | ⟨0, _⟩ => rfl)]
  refine congrArg Ideal.log ?_
  rw [hostReduceAdd_apply,
    Ideal.hostReduceAdd_single reducesTo_S2048x10_S2048_d1 reduces_cls, constant_apply, Ideal.ofBits_zero_f32, zero_add]
  refine Finset.sum_congr rfl fun k _ => ?_
  rw [lift_eq n k, hostExp_apply, shifted_apply l n k]

end Cert.ReferenceIdeal.RefHead

end
-- ==== Proof.RefValue.lean ====
/-
  The reference's result, entry by entry, is the network of GcnSpec.
-/
import proofs.«111349_g36472862278099_cont_sun_m_1164_2_alg».proof.Proof.RefTerm
import proofs.«111349_g36472862278099_cont_sun_m_1164_2_alg».proof.Proof.RefIndex
import proofs.«111349_g36472862278099_cont_sun_m_1164_2_alg».proof.Proof.RefLayers
import proofs.«111349_g36472862278099_cont_sun_m_1164_2_alg».proof.Proof.RefHead
import proofs.«111349_g36472862278099_cont_sun_m_1164_2_alg».proof.Proof.GcnSpec
import proofs.«111349_g36472862278099_cont_sun_m_1164_2_alg».proof.Proof.LibPlainDot
import Idealize.ShloMosaic.Lib.ValueIdx

open scoped BigOperators

noncomputable section

namespace Cert.ReferenceIdeal.RefValue

open Idealize.ShloMosaic Idealize.ShloMosaic.ValueIdx Cert.ReferenceIdeal Cert.ReferenceIdeal.Gen Cert.ReferenceIdeal.RefTerm

theorem out_eq (x : Cn Ideal S2048x128 .f32) (adj : Cn Ideal S2048x2048 .i32) (W1 : Cn Ideal S128x20 .f32)
    (W2 W3 : Cn Ideal S20x20 .f32) (b1 b2 b3 : Cn Ideal S20 .f32) (LW : Cn Ideal S60x10 .f32) (lb : Cn Ideal S10 .f32) :
    RefTerm.out (F := Ideal) x adj W1 W2 W3 b1 b2 b3 LW lb = Cert.Gcn.out x adj W1 W2 W3 b1 b2 b3 LW lb := by
  funext i
  obtain ⟨n, j, rfl⟩ : ∃ (n : Fin 2048) (j : Fin 10), i = ix2 n j := ⟨i 0, i 1, eq_ix2 i⟩
  rw [Cert.Gcn.out_apply]
  have hr : ∀ e : Fin 4194304, rowW Ideal (ix1 e) = BitVec.ofNat 32 (e.val / 2048) := RefIndex.rowW_apply
  have hc : ∀ e : Fin 4194304, colW Ideal (ix1 e) = BitVec.ofNat 32 (e.val % 2048) := RefIndex.colW_apply
  -- the three layers, entry by entry
  have hl1 : (fun (r : Fin 2048) (k : Fin 20) => layer1 (F := Ideal) (rowW Ideal) (colW Ideal) (edgeW adj) x W1 b1 (ix2 r k))
      = Cert.Gcn.x1 (fun r k => x (ix2 r k)) (fun r c => (((adj (ix2 r c)).toInt : ℝ) : EReal)) (fun k f => W1 (ix2 k f))
          (fun f => b1 (ix1 f)) := by
    funext r k
    exact RefLayers.layer1_apply _ _ hr hc adj x W1 b1 r k
  have hl2 : (fun (r : Fin 2048) (k : Fin 20) =>
        relu (F := Ideal) (layerLin (rowW Ideal) (colW Ideal) (edgeW adj)
          (layer1 (rowW Ideal) (colW Ideal) (edgeW adj) x W1 b1) W2 b2) (ix2 r k))
      = Cert.Gcn.x2 (fun r k => x (ix2 r k)) (fun r c => (((adj (ix2 r c)).toInt : ℝ) : EReal)) (fun k f => W1 (ix2 k f))
          (fun k f => W2 (ix2 k f)) (fun f => b1 (ix1 f)) (fun f => b2 (ix1 f)) := by
    funext r k
    rw [RefLayers.relu_apply, RefLayers.layerLin_apply _ _ hr hc, hl1]
    rfl
  have hl3 : (fun (r : Fin 2048) (k : Fin 20) =>
        layerLin (F := Ideal) (rowW Ideal) (colW Ideal) (edgeW adj)
          (relu (layerLin (rowW Ideal) (colW Ideal) (edgeW adj)
            (layer1 (rowW Ideal) (colW Ideal) (edgeW adj) x W1 b1) W2 b2)) W3 b3 (ix2 r k))
      = Cert.Gcn.x3 (fun r k => x (ix2 r k)) (fun r c => (((adj (ix2 r c)).toInt : ℝ) : EReal)) (fun k f => W1 (ix2 k f))
          (fun k f => W2 (ix2 k f)) (fun k f => W3 (ix2 k f)) (fun f => b1 (ix1 f)) (fun f => b2 (ix1 f))
          (fun f => b3 (ix1 f)) := by
    funext r k
    rw [RefLayers.layerLin_apply _ _ hr hc, hl2]
    rfl
  unfold RefTerm.out RefTerm.outOf
  rw [RefHead.logSoftmax_apply]
  have hlog : (fun j' : Fin 10 =>
        logits (F := Ideal) (layer1 (rowW Ideal) (colW Ideal) (edgeW adj) x W1 b1)
          (relu (layerLin (rowW Ideal) (colW Ideal) (edgeW adj)
            (layer1 (rowW Ideal) (colW Ideal) (edgeW adj) x W1 b1) W2 b2))
          (layerLin (rowW Ideal) (colW Ideal) (edgeW adj)
            (relu (layerLin (rowW Ideal) (colW Ideal) (edgeW adj)
              (layer1 (rowW Ideal) (colW Ideal) (edgeW adj) x W1 b1) W2 b2)) W3 b3)
          LW lb (ix2 n j'))
      = Cert.Gcn.logit
          (Cert.Gcn.x1 (fun r k => x (ix2 r k)) (fun r c => (((adj (ix2 r c)).toInt : ℝ) : EReal)) (fun k f => W1 (ix2 k f))
            (fun f => b1 (ix1 f)))
          (Cert.Gcn.x2 (fun r k => x (ix2 r k)) (fun r c => (((adj (ix2 r c)).toInt : ℝ) : EReal)) (fun k f => W1 (ix2 k f))
            (fun k f => W2 (ix2 k f)) (fun f => b1 (ix1 f)) (fun f => b2 (ix1 f)))
          (Cert.Gcn.x3 (fun r k => x (ix2 r k)) (fun r c => (((adj (ix2 r c)).toInt : ℝ) : EReal)) (fun k f => W1 (ix2 k f))
            (fun k f => W2 (ix2 k f)) (fun k f => W3 (ix2 k f)) (fun f => b1 (ix1 f)) (fun f => b2 (ix1 f))
            (fun f => b3 (ix1 f)))
          (fun k j => LW (ix2 k j)) (fun j => lb (ix1 j)) n := by
    funext j'
    rw [RefHead.logits_apply, hl1, hl2, hl3]
  rw [hlog]
  rfl

end Cert.ReferenceIdeal.RefValue

end
-- ==== Proof.lean ====
/-
  The certificate's claim. Both programs compute one function of their arguments, the network of Proof/GcnSpec.lean: a
  three-layer graph convolution over a dense 2048 × 2048 adjacency, a linear head over the three layers' outputs side by
  side, and a log-softmax over each node's ten logits. The kernel forms A^T (h W) by matrix products in a transposed
  layout; the reference lists all 2048 · 2048 (source, target) pairs, gathers each source's transformed features, scales
  them by the adjacency's entry and adds them up at the target. Summed over the sources of one target these are the
  same sums, term by term, so no finiteness is needed: only that + and · on the extended reals are commutative and
  associative.
  The two word-level and idealized kernel frames are the generated ones; the reference's frame is its run with the
  result dropped; the ideal pass rewrote nothing, so the idealization is preserved trivially.
-/
import proofs.«111349_g36472862278099_cont_sun_m_1164_2_alg».proof.Defs
import proofs.«111349_g36472862278099_cont_sun_m_1164_2_alg».proof.Proof.Gen.Kernel
import proofs.«111349_g36472862278099_cont_sun_m_1164_2_alg».proof.Proof.Gen.Kernel.Skeleton
import proofs.«111349_g36472862278099_cont_sun_m_1164_2_alg».proof.Proof.Gen.Kernel.Launch
import proofs.«111349_g36472862278099_cont_sun_m_1164_2_alg».proof.Proof.Gen.Kernel.Points
import proofs.«111349_g36472862278099_cont_sun_m_1164_2_alg».proof.Proof.Gen.Kernel.Frame
import proofs.«111349_g36472862278099_cont_sun_m_1164_2_alg».proof.Proof.Gen.KernelIdeal
import proofs.«111349_g36472862278099_cont_sun_m_1164_2_alg».proof.Proof.Gen.KernelIdeal.Skeleton
import proofs.«111349_g36472862278099_cont_sun_m_1164_2_alg».proof.Proof.Gen.KernelIdeal.Launch
import proofs.«111349_g36472862278099_cont_sun_m_1164_2_alg».proof.Proof.Gen.KernelIdeal.Points
import proofs.«111349_g36472862278099_cont_sun_m_1164_2_alg».proof.Proof.Gen.KernelIdeal.Frame
import proofs.«111349_g36472862278099_cont_sun_m_1164_2_alg».proof.Proof.Gen.ReferenceIdeal
import proofs.«111349_g36472862278099_cont_sun_m_1164_2_alg».proof.Proof.Gen.Pre_finite_inputs
import proofs.«111349_g36472862278099_cont_sun_m_1164_2_alg».proof.Proof.KValue
import proofs.«111349_g36472862278099_cont_sun_m_1164_2_alg».proof.Proof.RefRun
import proofs.«111349_g36472862278099_cont_sun_m_1164_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result's clause dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments the kernel ends at the network of its arguments and the reference at the
    same network of its own, which are the same arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
